-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x512x256 : Shape := ⟨4, ![1, 512, 512, 256]⟩
abbrev S1x512 : Shape := ⟨2, ![1, 512]⟩
abbrev S_ : Shape := ⟨0, ![]⟩

class Facts : Prop where
  bcast_S_S1x512x512x256 : S_.BroadcastsInDim S1x512x512x256 (![] : Fin 0 → Fin S1x512x512x256.rank)
  reducesTo_S1x512x512x256_S_d0_1_2_3 : S1x512x512x256.ReducesTo [0, 1, 2, 3] S_
  h_S_ : 0 < S_.numel

variable [Facts]

def fn {F : FTy → Type} [FloatOps F] (main_arg0 : FVec F S1x512x512x256 .f32) (main_arg1 : IVec S1x512 32) (main_arg2 : IVec S1x512 32) : IVec S_ 1 :=
  let main_v0 : FVec F S1x512x512x256 .f32 := Host.absf main_arg0
  let main_cst : FVec F S_ .f32 := constant S_ .f32 0x7F800000#32
  let main_v1 : FVec F S1x512x512x256 .f32 := broadcastInDim S1x512x512x256 ![] bcast_S_S1x512x512x256 main_cst
  let main_v2 : IVec S1x512x512x256 1 := cmpf .olt main_v0 main_v1
  let main_c : IVec S_ 1 := constantI S_ 1 1#1
  let main_v3 : IVec S_ 1 := (fun x v => Host.reduce IntOp.andi x v reducesTo_S1x512x512x256_S_d0_1_2_3 h_S_) main_v2 main_c
  main_v3
-- ==== Kernel.lean ====
abbrev S1x512x512x256 : Shape := ⟨4, ![1, 512, 512, 256]⟩
abbrev S1x512 : Shape := ⟨2, ![1, 512]⟩
abbrev S512x512x256 : Shape := ⟨3, ![512, 512, 256]⟩
abbrev S512 : Shape := ⟨1, ![512]⟩
abbrev S_ : Shape := ⟨0, ![]⟩
abbrev S1 : Shape := ⟨1, ![1]⟩
abbrev S511 : Shape := ⟨1, ![511]⟩
abbrev S512x1 : Shape := ⟨2, ![512, 1]⟩
abbrev S512x512 : Shape := ⟨2, ![512, 512]⟩
abbrev S512x131072 : Shape := ⟨2, ![512, 131072]⟩
abbrev S512x2048 : Shape := ⟨2, ![512, 2048]⟩
abbrev S8x512x256 : Shape := ⟨3, ![8, 512, 256]⟩
abbrev S1x512x256 : Shape := ⟨3, ![1, 512, 256]⟩
abbrev S512x256 : Shape := ⟨2, ![512, 256]⟩

abbrev nBuf : Space → Nat
  | .hbm => 61
  | .vmem => 10
  | .smem => 0
  | _ => 0

abbrev bufTy : (tb : Table) → Fin (tcTables nBuf tb) → BufTy
  | .hbm, ⟨0, _⟩ => ⟨S1x512x512x256, .f32⟩
  | .hbm, ⟨1, _⟩ => ⟨S1x512, .i32⟩
  | .hbm, ⟨2, _⟩ => ⟨S1x512, .i32⟩
  | .hbm, ⟨3, _⟩ => ⟨S512x512x256, .f32⟩
  | .hbm, ⟨4, _⟩ => ⟨S512, .i32⟩
  | .hbm, ⟨5, _⟩ => ⟨S_, .i32⟩
  | .hbm, ⟨6, _⟩ => ⟨S1, .i32⟩
  | .hbm, ⟨7, _⟩ => ⟨S511, .i32⟩
  | .hbm, ⟨8, _⟩ => ⟨S511, .i32⟩
  | .hbm, ⟨9, _⟩ => ⟨S511, .i1⟩
  | .hbm, ⟨10, _⟩ => ⟨S511, .i32⟩
  | .hbm, ⟨11, _⟩ => ⟨S512, .i32⟩
  | .hbm, ⟨12, _⟩ => ⟨S_, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S1, .i32⟩
  | .hbm, ⟨18, _⟩ => ⟨S511, .i32⟩
  | .hbm, ⟨19, _⟩ => ⟨S511, .i32⟩
  | .hbm, ⟨20, _⟩ => ⟨S511, .i1⟩
  | .hbm, ⟨21, _⟩ => ⟨S511, .i32⟩
  | .hbm, ⟨22, _⟩ => ⟨S512, .i32⟩
  | .hbm, ⟨23, _⟩ => ⟨S_, .i32⟩
  | .hbm, ⟨24, _⟩ => ⟨S_, .i32⟩
  | .hbm, ⟨25, _⟩ => ⟨S512, .i32⟩
  | .hbm, ⟨26, _⟩ => ⟨S512x1, .i32⟩
  | .hbm, ⟨27, _⟩ => ⟨S1x512, .i32⟩
  | .hbm, ⟨28, _⟩ => ⟨S512x512, .i32⟩
  | .hbm, ⟨29, _⟩ => ⟨S512x512, .i32⟩
  | .hbm, ⟨30, _⟩ => ⟨S512x512, .i1⟩
  | .hbm, ⟨31, _⟩ => ⟨S512x512, .f32⟩
  | .hbm, ⟨32, _⟩ => ⟨S_, .f32⟩
  | .hbm, ⟨33, _⟩ => ⟨S512, .f32⟩
  | .hbm, ⟨34, _⟩ => ⟨S512x1, .f32⟩
  | .hbm, ⟨35, _⟩ => ⟨S_, .f32⟩
  | .hbm, ⟨36, _⟩ => ⟨S512x1, .f32⟩
  | .hbm, ⟨37, _⟩ => ⟨S512x1, .f32⟩
  | .hbm, ⟨38, _⟩ => ⟨S512x512, .f32⟩
  | .hbm, ⟨39, _⟩ => ⟨S512x512, .f32⟩
  | .hbm, ⟨40, _⟩ => ⟨S512x512, .bf16⟩
  | .hbm, ⟨41, _⟩ => ⟨S512x1, .i32⟩
  | .hbm, ⟨42, _⟩ => ⟨S1x512, .i32⟩
  | .hbm, ⟨43, _⟩ => ⟨S512x512, .i32⟩
  | .hbm, ⟨44, _⟩ => ⟨S512x512, .i32⟩
  | .hbm, ⟨45, _⟩ => ⟨S512x512, .i1⟩
  | .hbm, ⟨46, _⟩ => ⟨S512x512, .f32⟩
  | .hbm, ⟨47, _⟩ => ⟨S_, .f32⟩
  | .hbm, ⟨48, _⟩ => ⟨S512, .f32⟩
  | .hbm, ⟨49, _⟩ => ⟨S512x1, .f32⟩
  | .hbm, ⟨50, _⟩ => ⟨S_, .f32⟩
  | .hbm, ⟨51, _⟩ => ⟨S512x1, .f32⟩
  | .hbm, ⟨52, _⟩ => ⟨S512x1, .f32⟩
  | .hbm, ⟨53, _⟩ => ⟨S512x512, .f32⟩
  | .hbm, ⟨54, _⟩ => ⟨S512x512, .f32⟩
  | .hbm, ⟨55, _⟩ => ⟨S512x512, .bf16⟩
  | .hbm, ⟨56, _⟩ => ⟨S512x131072, .f32⟩
  | .hbm, ⟨57, _⟩ => ⟨S512x131072, .bf16⟩
  | .hbm, ⟨58, _⟩ => ⟨S512x512x256, .bf16⟩
  | .hbm, ⟨59, _⟩ => ⟨S512x512x256, .f32⟩
  | .hbm, ⟨60, _⟩ => ⟨S1x512x512x256, .f32⟩
  | .local _ .vmem, ⟨0, _⟩ => ⟨S512x512, .bf16⟩
  | .local _ .vmem, ⟨1, _⟩ => ⟨S512x2048, .f32⟩
  | .local _ .vmem, ⟨2, _⟩ => ⟨S512x2048, .f32⟩
  | .local _ .vmem, ⟨3, _⟩ => ⟨S512x2048, .bf16⟩
  | .local _ .vmem, ⟨4, _⟩ => ⟨S512x2048, .bf16⟩
  | .local _ .vmem, ⟨5, _⟩ => ⟨S512x512, .bf16⟩
  | .local _ .vmem, ⟨6, _⟩ => ⟨S8x512x256, .bf16⟩
  | .local _ .vmem, ⟨7, _⟩ => ⟨S8x512x256, .bf16⟩
  | .local _ .vmem, ⟨8, _⟩ => ⟨S8x512x256, .f32⟩
  | .local _ .vmem, ⟨9, _⟩ => ⟨S8x512x256, .f32⟩
  | _, _ => ⟨S1x512x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call1_call0_c : Ref sig .tc := ⟨.hbm, 23, rfl⟩
abbrev main_call1_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S512x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8x512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1x512x512x256_S512x512x256 : S1x512x512x256.ShapeCasts S512x512x256
  shapeCasts_S1x512_S512 : S1x512.ShapeCasts S512
  bcast_S_S1 : S_.BroadcastsInDim S1 (![] : Fin 0 → Fin S1.rank)
  slices_S512_S511_1 : S512.Slices ![1] S511
  slices_S512_S511_0 : S512.Slices ![0] S511
  natLt_1_32 : 1 < 32
  concatenates_S1_S511_S512_d0 : Shape.Concatenates [S1, S511] S512 0
  bcast_S_S_ : S_.BroadcastsInDim S_ (![] : Fin 0 → Fin S_.rank)
  reduceWindows_S512_S512_w512s1p511_0 : S512.ReduceWindows (![512] : Fin 1 → Nat) ![1] ![511] ![0] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  reducesTo_S512x512_S512_d1 : S512x512.ReducesTo [1] S512
  bcast_S_S512x1 : S_.BroadcastsInDim S512x1 (![] : Fin 0 → Fin S512x1.rank)
  bitsLt_bf16_f32 : FTy.bits .bf16 < FTy.bits .f32
  shapeCasts_S512x512x256_S512x131072 : S512x512x256.ShapeCasts S512x131072
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  packedbf16_S512x2048_S512x2048_0_0 : (Rect.unit (s := S512x2048) ![0, 0] S512x2048.size inb_S512x2048_S512x2048_0_0).PackedRows (EltTy.packing .bf16)
  shapeCasts_S512x131072_S512x512x256 : S512x131072.ShapeCasts S512x512x256
  inb_S8x512x256_S1x512x256_0_0_0 : ∀ a, (![0, 0, 0] : Fin 3 → Nat) a + S1x512x256.size a ≤ S8x512x256.size a
  h_S1x512x256 : 0 < S1x512x256.numel
  shapeCasts_S1x512x256_S512x256 : S1x512x256.ShapeCasts S512x256
  shapeCasts_S512x256_S1x512x256 : S512x256.ShapeCasts S1x512x256
  inb_S8x512x256_S1x512x256_1_0_0 : ∀ a, (![1, 0, 0] : Fin 3 → Nat) a + S1x512x256.size a ≤ S8x512x256.size a
  inb_S8x512x256_S1x512x256_2_0_0 : ∀ a, (![2, 0, 0] : Fin 3 → Nat) a + S1x512x256.size a ≤ S8x512x256.size a
  inb_S8x512x256_S1x512x256_3_0_0 : ∀ a, (![3, 0, 0] : Fin 3 → Nat) a + S1x512x256.size a ≤ S8x512x256.size a
  inb_S8x512x256_S1x512x256_4_0_0 : ∀ a, (![4, 0, 0] : Fin 3 → Nat) a + S1x512x256.size a ≤ S8x512x256.size a
  inb_S8x512x256_S1x512x256_5_0_0 : ∀ a, (![5, 0, 0] : Fin 3 → Nat) a + S1x512x256.size a ≤ S8x512x256.size a
  inb_S8x512x256_S1x512x256_6_0_0 : ∀ a, (![6, 0, 0] : Fin 3 → Nat) a + S1x512x256.size a ≤ S8x512x256.size a
  inb_S8x512x256_S1x512x256_7_0_0 : ∀ a, (![7, 0, 0] : Fin 3 → Nat) a + S1x512x256.size a ≤ S8x512x256.size a
  bcast_S512x512x256_S1x512x512x256_1_2_3 : S512x512x256.BroadcastsInDim S1x512x512x256 (![1, 2, 3] : Fin 3 → Fin S1x512x512x256.rank)
  dot_S512x512_S512x2048_S512x2048_1_0_0_1_n_n_wf : DotDims.WF S512x512 S512x2048 S512x2048 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x131072.size a
  hwx0_1 : ∀ i : grid0.Coords, EltTy.bits .f32 = 32 ∨ (Rect.block (s := S512x131072) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x131072.size a
  hwx0_2 : ∀ i : grid0.Coords, EltTy.bits .bf16 = 32 ∨ (Rect.block (s := S512x131072) S512x2048.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S512x512.size a
  hwx1_0 : ∀ i : grid1.Coords, EltTy.bits .bf16 = 32 ∨ (Rect.block (s := S512x512) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x256.size a ≤ S512x512x256.size a
  hwx1_1 : ∀ i : grid1.Coords, EltTy.bits .bf16 = 32 ∨ (Rect.block (s := S512x512x256) S8x512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512x256.size a ≤ S512x512x256.size a
  hwx1_2 : ∀ i : grid1.Coords, EltTy.bits .f32 = 32 ∨ (Rect.block (s := S512x512x256) S8x512x256.size (cc1_transform_2 i) (hinb1_2 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_v29) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v43) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S512x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v45) S8x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S8x512x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x512x512x256 : Shape := ⟨4, ![1, 512, 512, 256]⟩
abbrev S1x512 : Shape := ⟨2, ![1, 512]⟩
abbrev S512x512x256 : Shape := ⟨3, ![512, 512, 256]⟩
abbrev S512 : Shape := ⟨1, ![512]⟩
abbrev S_ : Shape := ⟨0, ![]⟩
abbrev S1 : Shape := ⟨1, ![1]⟩
abbrev S511 : Shape := ⟨1, ![511]⟩
abbrev S512x1 : Shape := ⟨2, ![512, 1]⟩
abbrev S512x1x1 : Shape := ⟨3, ![512, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S1x512x512x256, .f32⟩
  | .hbm, ⟨1, _⟩ => ⟨S1x512, .i32⟩
  | .hbm, ⟨2, _⟩ => ⟨S1x512, .i32⟩
  | .hbm, ⟨3, _⟩ => ⟨S512x512x256, .f32⟩
  | .hbm, ⟨4, _⟩ => ⟨S512, .i32⟩
  | .hbm, ⟨5, _⟩ => ⟨S_, .i32⟩
  | .hbm, ⟨6, _⟩ => ⟨S1, .i32⟩
  | .hbm, ⟨7, _⟩ => ⟨S511, .i32⟩
  | .hbm, ⟨8, _⟩ => ⟨S511, .i32⟩
  | .hbm, ⟨9, _⟩ => ⟨S511, .i1⟩
  | .hbm, ⟨10, _⟩ => ⟨S511, .i32⟩
  | .hbm, ⟨11, _⟩ => ⟨S512, .i32⟩
  | .hbm, ⟨12, _⟩ => ⟨S_, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S1, .i32⟩
  | .hbm, ⟨18, _⟩ => ⟨S511, .i32⟩
  | .hbm, ⟨19, _⟩ => ⟨S511, .i32⟩
  | .hbm, ⟨20, _⟩ => ⟨S511, .i1⟩
  | .hbm, ⟨21, _⟩ => ⟨S511, .i32⟩
  | .hbm, ⟨22, _⟩ => ⟨S512, .i32⟩
  | .hbm, ⟨23, _⟩ => ⟨S_, .i32⟩
  | .hbm, ⟨24, _⟩ => ⟨S_, .i32⟩
  | .hbm, ⟨25, _⟩ => ⟨S512, .i32⟩
  | .hbm, ⟨26, _⟩ => ⟨S_, .f32⟩
  | .hbm, ⟨27, _⟩ => ⟨S512x512x256, .f32⟩
  | .hbm, ⟨28, _⟩ => ⟨S512x1, .i32⟩
  | .hbm, ⟨29, _⟩ => ⟨S512x512x256, .f32⟩
  | .hbm, ⟨30, _⟩ => ⟨S_, .f32⟩
  | .hbm, ⟨31, _⟩ => ⟨S512, .f32⟩
  | .hbm, ⟨32, _⟩ => ⟨S_, .f32⟩
  | .hbm, ⟨33, _⟩ => ⟨S512, .f32⟩
  | .hbm, ⟨34, _⟩ => ⟨S512x1, .i32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S512x1x1, .f32⟩
  | .hbm, ⟨40, _⟩ => ⟨S512x512x256, .f32⟩
  | .hbm, ⟨41, _⟩ => ⟨S512x512x256, .f32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S_, .i32⟩
  | .hbm, ⟨46, _⟩ => ⟨S512, .i32⟩
  | .hbm, ⟨47, _⟩ => ⟨S512, .i32⟩
  | .hbm, ⟨48, _⟩ => ⟨S512, .i32⟩
  | .hbm, ⟨49, _⟩ => ⟨S512x1, .i32⟩
  | .hbm, ⟨50, _⟩ => ⟨S512x512x256, .f32⟩
  | .hbm, ⟨51, _⟩ => ⟨S512x512x256, .f32⟩
  | .hbm, ⟨52, _⟩ => ⟨S_, .f32⟩
  | .hbm, ⟨53, _⟩ => ⟨S512x512x256, .f32⟩
  | .hbm, ⟨54, _⟩ => ⟨S512x1, .i32⟩
  | .hbm, ⟨55, _⟩ => ⟨S512x512x256, .f32⟩
  | .hbm, ⟨56, _⟩ => ⟨S_, .f32⟩
  | .hbm, ⟨57, _⟩ => ⟨S512, .f32⟩
  | .hbm, ⟨58, _⟩ => ⟨S_, .f32⟩
  | .hbm, ⟨59, _⟩ => ⟨S512, .f32⟩
  | .hbm, ⟨60, _⟩ => ⟨S512x1, .i32⟩
  | .hbm, ⟨61, _⟩ => ⟨S512, .f32⟩
  | .hbm, ⟨62, _⟩ => ⟨S_, .f32⟩
  | .hbm, ⟨63, _⟩ => ⟨S512, .f32⟩
  | .hbm, ⟨64, _⟩ => ⟨S512, .f32⟩
  | .hbm, ⟨65, _⟩ => ⟨S512x1x1, .f32⟩
  | .hbm, ⟨66, _⟩ => ⟨S512x512x256, .f32⟩
  | .hbm, ⟨67, _⟩ => ⟨S512x512x256, .f32⟩
  | .hbm, ⟨68, _⟩ => ⟨S_, .i32⟩
  | .hbm, ⟨69, _⟩ => ⟨S512, .i32⟩
  | .hbm, ⟨70, _⟩ => ⟨S512, .i1⟩
  | .hbm, ⟨71, _⟩ => ⟨S_, .i32⟩
  | .hbm, ⟨72, _⟩ => ⟨S512, .i32⟩
  | .hbm, ⟨73, _⟩ => ⟨S512, .i32⟩
  | .hbm, ⟨74, _⟩ => ⟨S512, .i32⟩
  | .hbm, ⟨75, _⟩ => ⟨S512x1, .i32⟩
  | .hbm, ⟨76, _⟩ => ⟨S512x512x256, .f32⟩
  | .hbm, ⟨77, _⟩ => ⟨S512x512x256, .f32⟩
  | .hbm, ⟨78, _⟩ => ⟨S1x512x512x256, .f32⟩
  | _, _ => ⟨S1x512x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call1_call0_c : Ref sig .tc := ⟨.hbm, 23, rfl⟩
abbrev main_call1_call0_v0 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]

class Facts₀ : Prop where
  shapeCasts_S1x512x512x256_S512x512x256 : S1x512x512x256.ShapeCasts S512x512x256
  shapeCasts_S1x512_S512 : S1x512.ShapeCasts S512
  bcast_S_S1 : S_.BroadcastsInDim S1 (![] : Fin 0 → Fin S1.rank)
  slices_S512_S511_1 : S512.Slices ![1] S511
  slices_S512_S511_0 : S512.Slices ![0] S511
  natLt_1_32 : 1 < 32
  concatenates_S1_S511_S512_d0 : Shape.Concatenates [S1, S511] S512 0
  bcast_S_S_ : S_.BroadcastsInDim S_ (![] : Fin 0 → Fin S_.rank)
  reduceWindows_S512_S512_w512s1p511_0 : S512.ReduceWindows (![512] : Fin 1 → Nat) ![1] ![511] ![0] S512
  h_S_ : 0 < S_.numel
  bcast_S_S512x512x256 : S_.BroadcastsInDim S512x512x256 (![] : Fin 0 → Fin S512x512x256.rank)
  bcast_S512_S512x1_0 : S512.BroadcastsInDim S512x1 (![0] : Fin 1 → Fin S512x1.rank)
  bcast_S_S512 : S_.BroadcastsInDim S512 (![] : Fin 0 → Fin S512.rank)
  bcast_S512_S512x1x1_0 : S512.BroadcastsInDim S512x1x1 (![0] : Fin 1 → Fin S512x1x1.rank)
  bcast_S512x1x1_S512x512x256_0_1_2 : S512x1x1.BroadcastsInDim S512x512x256 (![0, 1, 2] : Fin 3 → Fin S512x512x256.rank)
  transposes_S512x512x256_S512x512x256_1_0_2 : S512x512x256.Transposes [1, 0, 2] S512x512x256
  bcast_S512x512x256_S1x512x512x256_1_2_3 : S512x512x256.BroadcastsInDim S1x512x512x256 (![1, 2, 3] : Fin 3 → Fin S1x512x512x256.rank)
  scatter_S512x512x256_S512x1_S512x512x256_12_0_0_1_wf : ScatterDims.WF S512x512x256 S512x1 S512x512x256 [1, 2] [0] [0] 1
  scatter_S512_S512x1_S512_n_0_0_1_wf : ScatterDims.WF S512 S512x1 S512 [] [0] [0] 1
  gather_S512x512x256_S512x1_S512x512x256_12_0_n_n_0_1_1512256_wf : GatherDims.WF S512x512x256 S512x1 S512x512x256 [1, 2] [0] [] [0] [] 1 ![1, 512, 256]

variable [Facts₀]

def scatter_S512x512x256_S512x1_S512x512x256_12_0_0_1 : ScatterDims S512x512x256 S512x1 S512x512x256 where
  updateWindowDims := [1, 2]
  insertedWindowDims := [0]
  scatterDimsToOperandDims := [0]
  indexVectorDim := 1
  wf := scatter_S512x512x256_S512x1_S512x512x256_12_0_0_1_wf
def scatter_S512_S512x1_S512_n_0_0_1 : ScatterDims S512 S512x1 S512 where
  updateWindowDims := []
  insertedWindowDims := [0]
  scatterDimsToOperandDims := [0]
  indexVectorDim := 1
  wf := scatter_S512_S512x1_S512_n_0_0_1_wf
def gather_S512x512x256_S512x1_S512x512x256_12_0_n_n_0_1_1512256 : GatherDims S512x512x256 S512x1 S512x512x256 where
  offsetDims := [1, 2]
  collapsedSliceDims := [0]
  operandBatchingDims := []
  startIndicesBatchingDims := []
  startIndexMap := [0]
  indexVectorDim := 1
  sliceSizes := ![1, 512, 256]
  wf := gather_S512x512x256_S512x1_S512x512x256_12_0_n_n_0_1_1512256_wf

class Facts : Prop extends Facts₀ where

variable [Facts]
-- ==== Proof.Spec.lean ====
/-
  The mathematics both programs compute, stated once over extended reals.

  A vector of segment ids `ids` over `n` positions splits the positions into classes (two positions are in one class
  when their ids are equal). Pooling a vector `x` over the classes replaces every entry by the mean of its class.
  Two spellings of that mean appear: as the product of an averaging matrix with the vector (`matForm`), and as the
  class's sum divided by the class's size (`meanForm`). The image is pooled along its rows by the row ids and then
  along its columns by the column ids.
-/
import Idealize.ShloMosaic.PureOps.Ideal
import Mathlib.Algebra.BigOperators.Group.Finset.Basic

noncomputable section

namespace Cert.Spec

open Idealize.ShloMosaic

/-- The size of position `a`'s class, never below one: the sum over all positions of the indicator "same id as `a`",
    then the larger of that and one. -/
def cnt {n : Nat} (ids : Fin n → BitVec 32) (a : Fin n) : EReal :=
  max (∑ a' : Fin n, if ids a = ids a' then (1 : EReal) else 0) 1

/-- The averaging matrix: entry `(a, a')` is the indicator "same id" divided by the size of `a`'s class. -/
def avg {n : Nat} (ids : Fin n → BitVec 32) (a a' : Fin n) : EReal :=
  Ideal.div (if ids a = ids a' then (1 : EReal) else 0) (cnt ids a)

/-- Pooling as a matrix-vector product: row `a` of the averaging matrix against `x`. -/
def matForm {n : Nat} (ids : Fin n → BitVec 32) (x : Fin n → EReal) (a : Fin n) : EReal :=
  ∑ a' : Fin n, avg ids a a' * x a'

/-- Pooling as a class mean: the sum of `x` over `a`'s class divided by the class's size (never below one). -/
def meanForm {n : Nat} (ids : Fin n → BitVec 32) (x : Fin n → EReal) (a : Fin n) : EReal :=
  Ideal.div (∑ a' : Fin n, if ids a' = ids a then x a' else 0)
    (max (∑ a' : Fin n, if ids a' = ids a then (1 : EReal) else 0) 1)

/-- The image pooled along rows by `rid`, then along columns by `cid`, both as matrix products. -/
def pooledMat (rid cid : Fin 512 → BitVec 32) (x : Fin 512 → Fin 512 → Fin 256 → EReal)
    (h w : Fin 512) (c : Fin 256) : EReal :=
  matForm cid (fun w' => matForm rid (fun h' => x h' w' c) h) w

/-- The image pooled along rows by `rid`, then along columns by `cid`, both as class means. -/
def pooledMean (rid cid : Fin 512 → BitVec 32) (x : Fin 512 → Fin 512 → Fin 256 → EReal)
    (h w : Fin 512) (c : Fin 256) : EReal :=
  meanForm cid (fun w' => meanForm rid (fun h' => x h' w' c) h) w

end Cert.Spec

end
-- ==== Proof.Algebra.lean ====
/-
  The two spellings of pooling agree on real data.

  For a vector whose entries are all real numbers, the averaging matrix times the vector equals the class sum divided
  by the class size: the class size is a real number at least one, so dividing is multiplying by its reciprocal, and
  a real factor moves across a finite sum of reals. The pooled vector is again real, so the argument applies to the
  rows and then to the columns.
-/
import proofs.«158316_j5549097747077_1_alg».proof.Proof.Spec
import Mathlib.Data.EReal.Basic
import Mathlib.Data.EReal.Operations
import Mathlib.Algebra.BigOperators.Ring.Finset
import Mathlib.Tactic.Ring

noncomputable section

namespace Cert.Spec

open Idealize.ShloMosaic

/-- The coercion of reals into extended reals commutes with finite sums. -/
private theorem coe_finset_sum {ι : Type} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- The coercion of reals into extended reals commutes with the binary maximum. -/
private theorem coe_max' (p q : ℝ) : ((max p q : ℝ) : EReal) = max (p : EReal) (q : EReal) :=
  EReal.coe_strictMono.monotone.map_max

/-- The real indicator "same id". -/
private def ind {n : Nat} (ids : Fin n → BitVec 32) (a a' : Fin n) : ℝ :=
  if ids a = ids a' then 1 else 0

private theorem ind_coe {n : Nat} (ids : Fin n → BitVec 32) (a a' : Fin n) :
    (if ids a = ids a' then (1 : EReal) else 0) = ((ind ids a a' : ℝ) : EReal) := by
  unfold ind
  by_cases h : ids a = ids a'
  · rw [if_pos h, if_pos h, EReal.coe_one]
  · rw [if_neg h, if_neg h, EReal.coe_zero]

private theorem ind_coe_symm {n : Nat} (ids : Fin n → BitVec 32) (a a' : Fin n) :
    (if ids a' = ids a then (1 : EReal) else 0) = ((ind ids a a' : ℝ) : EReal) := by
  rw [← ind_coe]
  exact if_congr eq_comm rfl rfl

private theorem ind_mul_coe_symm {n : Nat} (ids : Fin n → BitVec 32) (xr : Fin n → ℝ) (a a' : Fin n) :
    (if ids a' = ids a then (xr a' : EReal) else 0) = ((ind ids a a' * xr a' : ℝ) : EReal) := by
  unfold ind
  by_cases h : ids a = ids a'
  · rw [if_pos h.symm, if_pos h, one_mul]
  · rw [if_neg (fun h' => h h'.symm), if_neg h, zero_mul, EReal.coe_zero]

/-- The real class size, never below one. -/
private def sz {n : Nat} (ids : Fin n → BitVec 32) (a : Fin n) : ℝ :=
  max (∑ a' : Fin n, ind ids a a') 1

private theorem sz_ne {n : Nat} (ids : Fin n → BitVec 32) (a : Fin n) : sz ids a ≠ 0 :=
  ne_of_gt (lt_of_lt_of_le one_pos (le_max_right _ _))

private theorem cnt_coe {n : Nat} (ids : Fin n → BitVec 32) (a : Fin n) :
    cnt ids a = ((sz ids a : ℝ) : EReal) := by
  unfold cnt sz
  rw [coe_max', coe_finset_sum, EReal.coe_one]
  congr 1
  exact Finset.sum_congr rfl (fun a' _ => ind_coe ids a a')

private theorem cnt_coe_symm {n : Nat} (ids : Fin n → BitVec 32) (a : Fin n) :
    max (∑ a' : Fin n, if ids a' = ids a then (1 : EReal) else 0) 1 = ((sz ids a : ℝ) : EReal) := by
  unfold sz
  rw [coe_max', coe_finset_sum, EReal.coe_one]
  congr 1
  exact Finset.sum_congr rfl (fun a' _ => ind_coe_symm ids a a')

private theorem avg_coe {n : Nat} (ids : Fin n → BitVec 32) (a a' : Fin n) :
    avg ids a a' = ((ind ids a a' * (1 / sz ids a) : ℝ) : EReal) := by
  unfold avg
  rw [cnt_coe, Ideal.div_coe (sz_ne ids a), ind_coe, ← EReal.coe_mul]

/-- The matrix spelling on real data is an explicit real. -/
private theorem matForm_coe {n : Nat} (ids : Fin n → BitVec 32) (xr : Fin n → ℝ) (a : Fin n) :
    matForm ids (fun a' => (xr a' : EReal)) a
      = ((∑ a' : Fin n, ind ids a a' * (1 / sz ids a) * xr a' : ℝ) : EReal) := by
  unfold matForm
  rw [coe_finset_sum]
  refine Finset.sum_congr rfl (fun a' _ => ?_)
  rw [avg_coe, ← EReal.coe_mul]

/-- The mean spelling on real data is an explicit real. -/
private theorem meanForm_coe {n : Nat} (ids : Fin n → BitVec 32) (xr : Fin n → ℝ) (a : Fin n) :
    meanForm ids (fun a' => (xr a' : EReal)) a
      = (((∑ a' : Fin n, ind ids a a' * xr a') * (1 / sz ids a) : ℝ) : EReal) := by
  unfold meanForm
  rw [cnt_coe_symm, Ideal.div_coe (sz_ne ids a), EReal.coe_mul, coe_finset_sum]
  congr 1
  exact Finset.sum_congr rfl (fun a' _ => ind_mul_coe_symm ids xr a a')

private theorem real_sums_agree {n : Nat} (ids : Fin n → BitVec 32) (xr : Fin n → ℝ) (a : Fin n) :
    (∑ a' : Fin n, ind ids a a' * (1 / sz ids a) * xr a')
      = (∑ a' : Fin n, ind ids a a' * xr a') * (1 / sz ids a) := by
  rw [Finset.sum_mul]
  refine Finset.sum_congr rfl (fun a' _ => ?_)
  ring

theorem matForm_eq_meanForm {n : Nat} (ids : Fin n → BitVec 32) (x : Fin n → EReal)
    (hx : ∀ a, ∃ r : ℝ, x a = (r : EReal)) (a : Fin n) : matForm ids x a = meanForm ids x a := by
  choose xr hxr using hx
  have hfun : x = fun a' => (xr a' : EReal) := funext hxr
  rw [hfun, matForm_coe, meanForm_coe, real_sums_agree]

theorem meanForm_real {n : Nat} (ids : Fin n → BitVec 32) (x : Fin n → EReal)
    (hx : ∀ a, ∃ r : ℝ, x a = (r : EReal)) (a : Fin n) : ∃ r : ℝ, meanForm ids x a = (r : EReal) := by
  choose xr hxr using hx
  have hfun : x = fun a' => (xr a' : EReal) := funext hxr
  exact ⟨_, by rw [hfun, meanForm_coe]⟩

theorem pooledMat_eq_pooledMean (rid cid : Fin 512 → BitVec 32) (x : Fin 512 → Fin 512 → Fin 256 → EReal)
    (hx : ∀ h w c, ∃ r : ℝ, x h w c = (r : EReal)) (h w : Fin 512) (c : Fin 256) :
    pooledMat rid cid x h w c = pooledMean rid cid x h w c := by
  unfold pooledMat pooledMean
  have hinner : (fun w' => matForm rid (fun h' => x h' w' c) h)
      = (fun w' => meanForm rid (fun h' => x h' w' c) h) :=
    funext (fun w' => matForm_eq_meanForm rid (fun h' => x h' w' c) (fun h' => hx h' w' c) h)
  rw [hinner]
  exact matForm_eq_meanForm cid _
    (fun w' => meanForm_real rid (fun h' => x h' w' c) (fun h' => hx h' w' c) h) w

end Cert.Spec

end
-- ==== Proof.Finite.lean ====
/-
  The precondition read: every entry of the image is a real number.

  The precondition says that the conjunction, over all entries, of "the absolute value is below +∞" is true. An
  extended real whose absolute value is below +∞ is neither infinity, hence the coercion of a real.
-/
import proofs.«158316_j5549097747077_1_alg».proof.Pre_finite_inputs
import proofs.«158316_j5549097747077_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs Cert.Pre_finite_inputs.Gen

/-- The scalar shape has one index. -/
private instance : Subsingleton S_.Idx := ⟨fun _ _ => funext fun d => d.elim0⟩

/-- The single-precision pattern of the positive infinity is `⊤`. -/
private theorem ofBits_top_f32 : Ideal.ofBits .f32 0x7F800000#32 = ⊤ := by simp [Ideal.ofBits, Ideal.ieee]

/-- An extended real whose absolute value compares below `⊤` is the coercion of a real: at either infinity the absolute
    value is `⊤`, which is not below itself. -/
private theorem real_of_abs_lt_top (y : EReal) (h : Ideal.cmp .olt (max y (-y)) ⊤ = 1#1) : ∃ r : ℝ, y = (r : EReal) := by
  induction y using EReal.rec with
  | bot => exact absurd h (by simp [Ideal.cmp])
  | top => exact absurd h (by simp [Ideal.cmp])
  | coe r => exact ⟨r, rfl⟩

/-- If the precondition's predicate is all ones on `(x, hm, vm)` then every entry of `x` is real. -/
theorem real_of_pre (x : FVec Ideal S1x512x512x256 .f32) (hm vm : IVec S1x512 32)
    (h : Cert.Pre_finite_inputs.fn (F := Ideal) x hm vm = (fun _ => 1#1)) (i : S1x512x512x256.Idx) :
    ∃ r : ℝ, x i = (r : EReal) := by
  have e := congrFun h ValueIdx.ix0
  dsimp only [Cert.Pre_finite_inputs.fn] at e
  have hi := Host.reduce_andi_all _ _ _ _ _ e i
  have hi' : Ideal.cmp .olt (max (x i) (-(x i))) (Ideal.ofBits .f32 0x7F800000#32) = 1#1 := hi
  rw [ofBits_top_f32] at hi'
  exact real_of_abs_lt_top _ hi'

end Cert.Finite

end
-- ==== Proof.AvgMat.lean ====
/-
  The averaging matrix the kernel's program builds on the host, read at an index.

  From segment ids `ids : [512]` the matrix has entry `(a, a')` equal to the indicator "ids a = ids a'" (a compare of
  the ids laid out along rows against the ids laid out along columns, converted to a float) divided by the row's sum of
  indicators (never below one); the narrowing to a shorter float format is the identity on extended reals.
-/
import proofs.«158316_j5549097747077_1_alg».proof.Proof.Spec
import Idealize.ShloMosaic.PureOps
import Idealize.ShloMosaic.PureOps.Ideal
import Idealize.ShloMosaic.PureOps.Ideal.Laws
import Idealize.ShloMosaic.Lib.ValueIdx
import Idealize.ShloMosaic.Lib.IdealHost

noncomputable section

namespace Cert.AvgMat

open Idealize.ShloMosaic Idealize.ShloMosaic.ValueIdx

abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩

/-- The side conditions of the matrix's operations, as the printed program states them. -/
structure Facts : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  reducesTo_S512x512_S512_d1 : S512x512.ReducesTo [1] S512
  h_S_ : 0 < S_.numel
  bcast_S_S512x1 : S_.BroadcastsInDim S512x1 (![] : Fin 0 → Fin S512x1.rank)
  bitsLt_bf16_f32 : FTy.bf16.bits < FTy.f32.bits

variable {F : FTy → Type} [FloatOps F]

/-- The indicator matrix "same id", as a float. -/
def same (hf : Facts) (ids : IVec S512 32) : FVec F S512x512 .f32 :=
  uitofp .f32 (cmpi .eq
    (broadcastInDim S512x512 ![0, 1] hf.bcast_S512x1_S512x512_0_1 (broadcastInDim S512x1 ![0] hf.bcast_S512_S512x1_0 ids))
    (broadcastInDim S512x512 ![0, 1] hf.bcast_S1x512_S512x512_0_1 (broadcastInDim S1x512 ![1] hf.bcast_S512_S1x512_1 ids)))

/-- The averaging matrix: the indicator divided by its row sum (never below one), narrowed. -/
def avgMat (hf : Facts) (ids : IVec S512 32) : FVec F S512x512 .bf16 :=
  truncf .bf16
    (Host.divf (same hf ids)
      (broadcastInDim S512x512 ![0, 1] hf.bcast_S512x1_S512x512_0_1
        (maximumf
          (broadcastInDim S512x1 ![0] hf.bcast_S512_S512x1_0
            (Host.reduceAdd (same hf ids) (constant S_ .f32 0x00000000#32) hf.reducesTo_S512x512_S512_d1 hf.h_S_))
          (broadcastInDim S512x1 ![] hf.bcast_S_S512x1 (constant S_ .f32 0x3F800000#32)))))
    hf.bitsLt_bf16_f32

/-! ## Broadcasts read at an index -/

/-- A broadcast along chosen axes reads the operand at the index whose coordinate on each operand axis is the result
    index's coordinate on the axis it goes to, or zero where the operand axis has size one. -/
private theorem bc_apply {α : Type} {s t : Shape} (dims : Fin s.rank → Fin t.rank) (h : s.BroadcastsInDim t dims)
    (x : s.Idx → α) (j : t.Idx) (k : s.Idx)
    (hk : ∀ d : Fin s.rank, (k d).val = if s.size d = 1 then 0 else (j (dims d)).val) :
    broadcastInDim t dims h x j = x k := by
  unfold broadcastInDim
  refine congrArg x (funext fun d => Fin.ext ?_)
  rw [hk d]
  by_cases h1 : s.size d = 1
  · rw [dif_pos h1, if_pos h1]
  · rw [dif_neg h1, if_neg h1]

/-- A vector laid out as a column reads its entry at the row. -/
private theorem bc_col {α : Type} (hf : Facts) (x : S512.Idx → α) (a : Fin 512) (z : Fin 1) :
    broadcastInDim S512x1 ![0] hf.bcast_S512_S512x1_0 x (ix2 a z) = x (ix1 a) :=
  bc_apply _ _ x _ (ix1 a) (fun d => match d with | ⟨0, _⟩ => rfl)

/-- A vector laid out as a row reads its entry at the column. -/
private theorem bc_row {α : Type} (hf : Facts) (x : S512.Idx → α) (z : Fin 1) (b : Fin 512) :
    broadcastInDim S1x512 ![1] hf.bcast_S512_S1x512_1 x (ix2 z b) = x (ix1 b) :=
  bc_apply _ _ x _ (ix1 b) (fun d => match d with | ⟨0, _⟩ => rfl)

/-- A column stretched across the columns reads the column's entry at the row. -/
private theorem bc_colMat {α : Type} (hf : Facts) (x : S512x1.Idx → α) (a b : Fin 512) :
    broadcastInDim S512x512 ![0, 1] hf.bcast_S512x1_S512x512_0_1 x (ix2 a b) = x (ix2 a 0) :=
  bc_apply _ _ x _ (ix2 a 0) (fun d => match d with | ⟨0, _⟩ => rfl | ⟨1, _⟩ => rfl)

/-- A row stretched across the rows reads the row's entry at the column. -/
private theorem bc_rowMat {α : Type} (hf : Facts) (x : S1x512.Idx → α) (a b : Fin 512) :
    broadcastInDim S512x512 ![0, 1] hf.bcast_S1x512_S512x512_0_1 x (ix2 a b) = x (ix2 0 b) :=
  bc_apply _ _ x _ (ix2 0 b) (fun d => match d with | ⟨0, _⟩ => rfl | ⟨1, _⟩ => rfl)

/-! ## The indicator at an index -/

/-- A one-bit "equal" compare, read as an unsigned number, is the indicator of equality. -/
private theorem indicator_eq (x y : BitVec 32) :
    (((IntOp.cmpi .eq x y).toNat : ℝ) : EReal) = if x = y then (1 : EReal) else 0 := by
  by_cases h : x = y
  · subst h; simp [IntOp.cmpi]
  · simp [IntOp.cmpi, h]

/-- The indicator matrix at an index. -/
theorem same_apply (hf : Facts) (ids : IVec S512 32) (a b : Fin 512) :
    same (F := Ideal) hf ids (ix2 a b) = if ids (ix1 a) = ids (ix1 b) then (1 : EReal) else 0 := by
  show (((IntOp.cmpi .eq
      (broadcastInDim S512x512 ![0, 1] hf.bcast_S512x1_S512x512_0_1
        (broadcastInDim S512x1 ![0] hf.bcast_S512_S512x1_0 ids) (ix2 a b))
      (broadcastInDim S512x512 ![0, 1] hf.bcast_S1x512_S512x512_0_1
        (broadcastInDim S1x512 ![1] hf.bcast_S512_S1x512_1 ids) (ix2 a b))).toNat : ℝ) : EReal) = _
  rw [bc_colMat hf, bc_col hf, bc_rowMat hf, bc_row hf, indicator_eq]

/-! ## The row sum at an index -/

/-- The matrix summed along its second axis, from zero, is at row `a` the sum over the columns. -/
private theorem rowSum_apply (hf : Facts) (x : FVec Ideal S512x512 .f32) (a : Fin 512) :
    Host.reduceAdd x (constant S_ .f32 0x00000000#32) hf.reducesTo_S512x512_S512_d1 hf.h_S_ (ix1 a)
      = ∑ k : Fin 512, x (ix2 a k) := by
  have h : S512x512.Reduces [1] S512 := by decide
  rw [hostReduceAdd_apply, Ideal.hostReduceAdd_single hf.reducesTo_S512x512_S512_d1 h, constant_apply,
    Ideal.ofBits_zero_f32, zero_add]
  refine Finset.sum_congr rfl fun k _ => congrArg x (funext fun c => ?_)
  match c with
  | ⟨0, _⟩ => exact Fin.ext rfl
  | ⟨1, _⟩ => exact Fin.ext rfl

/-! ## The matrix at an index -/

/-- THE MATRIX AT AN INDEX. -/
theorem avgMat_apply (hf : Facts) (ids : IVec S512 32) (a a' : Fin 512) :
    avgMat (F := Ideal) hf ids (ix2 a a') = Spec.avg (fun k : Fin 512 => ids (ix1 k)) a a' := by
  unfold avgMat
  rw [truncf_apply, hostDivf_apply, bc_colMat hf, maximumf_apply, bc_col hf, broadcastInDim_scalar_apply, constant_apply,
    Ideal.ofBits_one_f32, rowSum_apply hf, same_apply hf]
  unfold Spec.avg Spec.cnt
  refine congrArg (fun s => Ideal.div _ (max s 1)) (Finset.sum_congr rfl fun k _ => ?_)
  rw [same_apply hf]

end Cert.AvgMat

end
-- ==== Proof.SegIds.lean ====
/-
  Segment ids from a mask, and their range.

  From a vector of 512 mask words the segment id of position `a` is the number of positions `1 ≤ j ≤ a` at which the
  mask differs from its predecessor: a running sum (a window of 512 over the vector padded with 511 zeros in front)
  of the 0/1 change flags, whose first entry is the constant zero. Every id therefore lies in `[0, 511]`.
-/
import Idealize.ShloMosaic.PureOps
import Idealize.ShloMosaic.Lib.ValueIdx
import Idealize.ShloMosaic.Lib.Pipeline.Value

noncomputable section

namespace Cert.SegIds

open Idealize.ShloMosaic Idealize.ShloMosaic.ValueIdx

abbrev S512 : Shape := ⟨1, ![512]⟩
abbrev S511 : Shape := ⟨1, ![511]⟩
abbrev S1 : Shape := ⟨1, ![1]⟩
abbrev S_ : Shape := ⟨0, ![]⟩

/-- The change flags: zero in front, then for `j ≥ 1` the bit "mask j ≠ mask (j - 1)" widened to a word. -/
def change (h2 : S_.BroadcastsInDim S1 (![] : Fin 0 → Fin S1.rank)) (h3 : S512.Slices ![1] S511) (h4 : S512.Slices ![0] S511)
    (h5 : 1 < 32) (h6 : Shape.Concatenates [S1, S511] S512 0) (mask : IVec S512 32) : IVec S512 32 :=
  concatenate S512 0 [⟨S1, broadcastInDim S1 ![] h2 (constantI S_ 32 0#32)⟩,
    ⟨S511, extui 32 (cmpi .ne (extractStridedSlice S511 ![1] mask h3) (extractStridedSlice S511 ![0] mask h4)) h5⟩] h6

/-- The segment ids: the running sum of the change flags. -/
def segIds (h2 : S_.BroadcastsInDim S1 (![] : Fin 0 → Fin S1.rank)) (h3 : S512.Slices ![1] S511) (h4 : S512.Slices ![0] S511)
    (h5 : 1 < 32) (h6 : Shape.Concatenates [S1, S511] S512 0) (h7 : S_.BroadcastsInDim S_ (![] : Fin 0 → Fin S_.rank))
    (h8 : S512.ReduceWindows (![512] : Fin 1 → Nat) ![1] ![511] ![0] S512) (h9 : 0 < S_.numel)
    (mask : IVec S512 32) : IVec S512 32 :=
  Host.reduceWindow IntOp.addi ![512] ![1] ![511] ![0] (change h2 h3 h4 h5 h6 mask)
    (broadcastInDim S_ ![] h7 (constantI S_ 32 0#32)) h8 h9

/-- A left fold of word additions stays below the sum of bounds on its terms, as long as that sum fits a word. -/
private theorem foldl_addi_toNat_le {ι : Type} (f : ι → BitVec 32) (b : ι → Nat) (hf : ∀ n, (f n).toNat ≤ b n) :
    ∀ (l : List ι) (r0 : BitVec 32), r0.toNat + (l.map b).sum < 2 ^ 32 →
      (l.foldl (fun r n => IntOp.addi r (f n)) r0).toNat ≤ r0.toNat + (l.map b).sum
  | [], r0, _ => by simp
  | n :: l, r0, h => by
    simp only [List.foldl_cons, List.map_cons, List.sum_cons] at h ⊢
    have hn := hf n
    have h1 : (IntOp.addi r0 (f n)).toNat = r0.toNat + (f n).toNat := by
      unfold IntOp.addi; rw [BitVec.toNat_add, Nat.mod_eq_of_lt]; omega
    have h2 := foldl_addi_toNat_le f b hf l (IntOp.addi r0 (f n)) (by rw [h1]; omega)
    rw [h1] at h2; omega

/-- Bounds that are at most one everywhere and zero at a member of the list sum to less than the length. -/
private theorem sum_lt_length {ι : Type} (b : ι → Nat) (hb : ∀ n, b n ≤ 1) (n0 : ι) (h0 : b n0 = 0) :
    ∀ (l : List ι), n0 ∈ l → (l.map b).sum + 1 ≤ l.length
  | [], h => by simp at h
  | n :: l, h => by
    simp only [List.map_cons, List.sum_cons, List.length_cons]
    have hle : (l.map b).sum ≤ l.length := by
      clear h
      induction l with
      | nil => simp
      | cons m l ih => simp only [List.map_cons, List.sum_cons, List.length_cons]; have := hb m; omega
    rcases List.mem_cons.1 h with rfl | h'
    · omega
    · have := sum_lt_length b hb n0 h0 l h'; have := hb n; omega

section
variable (h2 : S_.BroadcastsInDim S1 (![] : Fin 0 → Fin S1.rank)) (h3 : S512.Slices ![1] S511) (h4 : S512.Slices ![0] S511)
    (h5 : 1 < 32) (h6 : Shape.Concatenates [S1, S511] S512 0) (mask : IVec S512 32)

/-- The change flag at position zero is the zero word. -/
private theorem change_zero (i : S512.Idx) (hi : (i 0).val = 0) : change h2 h3 h4 h5 h6 mask i = 0#32 := by
  unfold change
  exact (concatenate_pair_apply_left (t := S512) (s₁ := S1) (s₂ := S511) 0 _ _ h6 i rfl (ix1 ⟨0, by decide⟩)
    (fun b => by match b with | ⟨0, _⟩ => exact hi.symm)).trans rfl

/-- Every change flag is a word that is zero or one. -/
private theorem change_toNat_le (i : S512.Idx) : (change h2 h3 h4 h5 h6 mask i).toNat ≤ 1 := by
  by_cases hi : (i 0).val = 0
  · rw [change_zero h2 h3 h4 h5 h6 mask i hi]; decide
  · have hlt : (i 0).val < 512 := (i 0).isLt
    unfold change
    rw [concatenate_pair_apply_right (t := S512) (s₁ := S1) (s₂ := S511) 0 _ _ h6 i rfl rfl
      (ix1 ⟨(i 0).val - 1, by omega⟩)
      (fun b hb => by match b with | ⟨0, _⟩ => exact absurd rfl hb)
      (by show (i 0).val - 1 + 1 = (i 0).val; omega)]
    rw [extui_apply, BitVec.toNat_setWidth]
    generalize (cmpi CmpIPredicate.ne (extractStridedSlice S511 ![1] mask h3) (extractStridedSlice S511 ![0] mask h4)
      (ix1 ⟨(i 0).val - 1, by omega⟩)) = w
    have : w.toNat < 2 := w.isLt
    have := Nat.mod_le w.toNat (2 ^ 32)
    omega

end

/-- Every segment id, read as a natural number, is at most 511: the window's 512 terms are each at most one, and the
    term that reads position zero of the change flags is zero. -/
private theorem segIds_toNat_le (h2 : S_.BroadcastsInDim S1 (![] : Fin 0 → Fin S1.rank)) (h3 : S512.Slices ![1] S511) (h4 : S512.Slices ![0] S511)
    (h5 : 1 < 32) (h6 : Shape.Concatenates [S1, S511] S512 0) (h7 : S_.BroadcastsInDim S_ (![] : Fin 0 → Fin S_.rank))
    (h8 : S512.ReduceWindows (![512] : Fin 1 → Nat) ![1] ![511] ![0] S512) (h9 : 0 < S_.numel)
    (mask : IVec S512 32) (a : Fin 512) :
    (segIds h2 h3 h4 h5 h6 h7 h8 h9 mask (ix1 a)).toNat ≤ 511 := by
  unfold segIds Host.reduceWindow
  simp only []
  have ha : a.val < 512 := a.isLt
  let n0 : Fin S512.numel := S512.rowMajor (ix1 ⟨511 - a.val, by omega⟩)
  let b : Fin S512.numel → Nat := fun n => if n = n0 then 0 else 1
  have hb : ∀ n, b n ≤ 1 := fun n => by simp only [b]; split <;> omega
  have hlen : (List.finRange S512.numel).length = 512 := by rw [List.length_finRange]; exact Shape.numel_rank1 _
  have hsum := sum_lt_length b hb n0 (by simp [b]) (List.finRange _) (List.mem_finRange _)
  refine Nat.le_trans (foldl_addi_toNat_le _ b ?hf (List.finRange _) _ ?hlt) ?_
  case hlt =>
    show 0 + _ < _
    omega
  case hf =>
    intro n
    split
    · by_cases hn : n = n0
      · have e : (S512.rowMajor.symm n 0).val = 511 - a.val := by
          rw [hn]; simp only [n0, Equiv.symm_apply_apply]
        rw [change_zero h2 h3 h4 h5 h6 mask _
          (by show a.val * 1 + (S512.rowMajor.symm n 0).val - 511 = 0; omega)]
        exact Nat.zero_le _
      · have h1 : b n = 1 := by simp only [b, if_neg hn]
        rw [h1]
        exact change_toNat_le h2 h3 h4 h5 h6 mask _
    · exact Nat.zero_le _
  · show 0 + _ ≤ _
    omega

/-- Every segment id, read as a signed word, lies in `[0, 512)`. -/
theorem segIds_range (h2 : S_.BroadcastsInDim S1 (![] : Fin 0 → Fin S1.rank)) (h3 : S512.Slices ![1] S511) (h4 : S512.Slices ![0] S511)
    (h5 : 1 < 32) (h6 : Shape.Concatenates [S1, S511] S512 0) (h7 : S_.BroadcastsInDim S_ (![] : Fin 0 → Fin S_.rank))
    (h8 : S512.ReduceWindows (![512] : Fin 1 → Nat) ![1] ![511] ![0] S512) (h9 : 0 < S_.numel)
    (mask : IVec S512 32) (a : Fin 512) :
    0 ≤ (segIds h2 h3 h4 h5 h6 h7 h8 h9 mask (ix1 a)).toInt ∧ (segIds h2 h3 h4 h5 h6 h7 h8 h9 mask (ix1 a)).toInt < 512 := by
  have h := segIds_toNat_le h2 h3 h4 h5 h6 h7 h8 h9 mask a
  generalize segIds h2 h3 h4 h5 h6 h7 h8 h9 mask (ix1 a) = x at h ⊢
  have hx : x.toInt = (x.toNat : Int) := by
    rw [BitVec.toInt_eq_toNat_cond, if_pos (by omega)]
  rw [hx]
  constructor <;> omega

end Cert.SegIds

end
-- ==== Proof.KernelFn.lean ====
/-
  What the kernel's program computes, as one function of its three arguments (at extended reals).

  The mask rows become segment ids and each id vector an averaging matrix. The image, its leading unit axis dropped and
  its last two axes flattened, is multiplied on the left by the row matrix (every output column is the matrix times the
  input column); the product, unflattened, is multiplied slab by slab on the left by the column matrix; the unit axis
  is restored.
-/
import proofs.«158316_j5549097747077_1_alg».proof.Proof.Gen.KernelIdeal
import proofs.«158316_j5549097747077_1_alg».proof.Proof.AvgMat
import proofs.«158316_j5549097747077_1_alg».proof.Proof.SegIds

noncomputable section

namespace Cert.KernelIdeal.Out

open Cert.KernelIdeal Cert.KernelIdeal.Gen Idealize.ShloMosaic Idealize.ShloMosaic.ValueIdx

/-- The averaging matrix's side conditions hold at these shapes. -/
theorem avgFacts : Cert.AvgMat.Facts where
  bcast_S512_S512x1_0 := bcast_S512_S512x1_0
  bcast_S512_S1x512_1 := bcast_S512_S1x512_1
  bcast_S512x1_S512x512_0_1 := bcast_S512x1_S512x512_0_1
  bcast_S1x512_S512x512_0_1 := bcast_S1x512_S512x512_0_1
  reducesTo_S512x512_S512_d1 := reducesTo_S512x512_S512_d1
  h_S_ := h_S_
  bcast_S_S512x1 := bcast_S_S512x1
  bitsLt_bf16_f32 := bitsLt_bf16_f32

/-- The segment ids of a mask row. -/
def ids (mask : IVec S1x512 32) : IVec S512 32 :=
  Cert.SegIds.segIds bcast_S_S1 slices_S512_S511_1 slices_S512_S511_0 natLt_1_32 concatenates_S1_S511_S512_d0 bcast_S_S_
    reduceWindows_S512_S512_w512s1p511_0 h_S_ (shapeCast S512 mask shapeCasts_S1x512_S512)

/-- A 512×512 matrix times a 512×131072 matrix: entry `(h, n)` is row `h` against column `n`. -/
def rowPool (A : FVec Ideal S512x512 .bf16) (X : FVec Ideal S512x131072 .f32) : FVec Ideal S512x131072 .bf16 :=
  fun j => ∑ k : Fin 512, A (ix2 (j 0) k) * X (ix2 k (j 1))

/-- A 512×512 matrix times every slab `Y[h, :, :]` of a three-axis array: entry `(h, w, c)` is row `w` against the
    column `Y[h, :, c]`. -/
def colPool (B : FVec Ideal S512x512 .bf16) (Y : FVec Ideal S512x512x256 .bf16) : FVec Ideal S512x512x256 .f32 :=
  fun j => ∑ k : Fin 512, B (ix2 (j 1) k) * Y (ix3 (j 0) k (j 2))

theorem rowPool_apply (A : FVec Ideal S512x512 .bf16) (X : FVec Ideal S512x131072 .f32) (h : Fin 512) (n : Fin 131072) :
    rowPool A X (ix2 h n) = ∑ k : Fin 512, A (ix2 h k) * X (ix2 k n) := rfl

theorem colPool_apply (B : FVec Ideal S512x512 .bf16) (Y : FVec Ideal S512x512x256 .bf16) (h w : Fin 512) (c : Fin 256) :
    colPool B Y (ix3 h w c) = ∑ k : Fin 512, B (ix2 w k) * Y (ix3 h k c) := rfl

/-- The kernel program's result as a function of the image and the two mask rows. -/
def out (x : FVec Ideal S1x512x512x256 .f32) (hm vm : IVec S1x512 32) : FVec Ideal S1x512x512x256 .f32 :=
  broadcastInDim S1x512x512x256 ![1, 2, 3] bcast_S512x512x256_S1x512x512x256_1_2_3
    (colPool (Cert.AvgMat.avgMat avgFacts (ids vm))
      (shapeCast S512x512x256
        (rowPool (Cert.AvgMat.avgMat avgFacts (ids hm))
          (shapeCast S512x131072 (shapeCast S512x512x256 x shapeCasts_S1x512x512x256_S512x512x256)
            shapeCasts_S512x512x256_S512x131072))
        shapeCasts_S512x131072_S512x512x256))

end Cert.KernelIdeal.Out

end
-- ==== Proof.KRegion0.lean ====
/-
  What the first kernel region leaves in its output array.

  The region walks 64 column panels of width 2048. At panel `t` the body multiplies the whole 512×512 matrix with the
  panel of the input (rows all, columns 2048·t …) and stores the product as the same panel of the output. The panels
  tile the output, and each is the restriction of one whole-array function: the matrix times the input.
-/
import proofs.«158316_j5549097747077_1_alg».proof.Proof.Gen.KernelIdeal.Frame
import proofs.«158316_j5549097747077_1_alg».proof.Proof.KernelFn
import Idealize.ShloMosaic.Lib.Pipeline.Value
import Idealize.ShloMosaic.PureOps.Ideal.Laws

set_option maxRecDepth 16384

noncomputable section

namespace Cert.KernelIdeal.Out

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's product at an entry -/

/-- The row operand of the body's product, at a contraction position: row `p`, column the position. -/
private theorem lhs_rows_0 (p : Fin 512) (q : Fin 2048) (k : Fin 512) :
    ((dot_S512x512_S512x2048_S512x2048_1_0_0_1_n_n).lhsIdx (ix2 p q)
      ((contrEquiv1 dot_S512x512_S512x2048_S512x2048_1_0_0_1_n_n 512 rfl rfl).symm k) 0).val = p.val := by
  simp [DotDims.lhsIdx, dot_S512x512_S512x2048_S512x2048_1_0_0_1_n_n]; rfl

private theorem lhs_rows_1 (p : Fin 512) (q : Fin 2048) (k : Fin 512) :
    ((dot_S512x512_S512x2048_S512x2048_1_0_0_1_n_n).lhsIdx (ix2 p q)
      ((contrEquiv1 dot_S512x512_S512x2048_S512x2048_1_0_0_1_n_n 512 rfl rfl).symm k) 1).val = k.val := by
  simp [DotDims.lhsIdx, dot_S512x512_S512x2048_S512x2048_1_0_0_1_n_n]
  exact contrEquiv1_symm_val dot_S512x512_S512x2048_S512x2048_1_0_0_1_n_n 512 rfl rfl k

/-- The column operand of the body's product, at a contraction position: row the position, column `q`. -/
private theorem rhs_rows_0 (p : Fin 512) (q : Fin 2048) (k : Fin 512) :
    ((dot_S512x512_S512x2048_S512x2048_1_0_0_1_n_n).rhsIdx (ix2 p q)
      ((contrEquiv1 dot_S512x512_S512x2048_S512x2048_1_0_0_1_n_n 512 rfl rfl).symm k) 0).val = k.val := by
  simp [DotDims.rhsIdx, dot_S512x512_S512x2048_S512x2048_1_0_0_1_n_n]
  exact contrEquiv1_symm_val dot_S512x512_S512x2048_S512x2048_1_0_0_1_n_n 512 rfl rfl k

private theorem rhs_rows_1 (p : Fin 512) (q : Fin 2048) (k : Fin 512) :
    ((dot_S512x512_S512x2048_S512x2048_1_0_0_1_n_n).rhsIdx (ix2 p q)
      ((contrEquiv1 dot_S512x512_S512x2048_S512x2048_1_0_0_1_n_n 512 rfl rfl).symm k) 1).val = q.val := by
  simp [DotDims.rhsIdx, dot_S512x512_S512x2048_S512x2048_1_0_0_1_n_n]; rfl

/-- The body's payload at an entry: row `p` of the matrix block against column `q` of the input block. -/
private theorem rows_pay_apply (x0 : Vec Ideal S512x512 .bf16) (x1 : Vec Ideal S512x2048 .f32) (p : Fin 512) (q : Fin 2048) :
    k0_pay1 x0 x1 (ix2 p q) = ∑ k : Fin 512, x0 (ix2 p k) * x1 (ix2 k q) := by
  unfold k0_pay1
  simp only [shapeCast_self]
  rw [truncf_apply]
  show FloatOps.matmul dot_S512x512_S512x2048_S512x2048_1_0_0_1_n_n none x0 (truncf (F := Ideal) .bf16 x1 bitsLt_bf16_f32)
    (constant S512x2048 .f32 0x00000000#32) (ix2 p q) = _
  rw [Ideal.matmul_constant_zero_apply,
    ← Equiv.sum_comp (contrEquiv1 dot_S512x512_S512x2048_S512x2048_1_0_0_1_n_n 512 rfl rfl).symm]
  refine Finset.sum_congr rfl fun k _ => ?_
  have l : (dot_S512x512_S512x2048_S512x2048_1_0_0_1_n_n).lhsIdx (ix2 p q)
      ((contrEquiv1 dot_S512x512_S512x2048_S512x2048_1_0_0_1_n_n 512 rfl rfl).symm k) = ix2 p k := by
    funext ax; apply Fin.ext
    match ax with
    | ⟨0, _⟩ => exact lhs_rows_0 _ _ _
    | ⟨1, _⟩ => exact lhs_rows_1 _ _ _
  have r : (dot_S512x512_S512x2048_S512x2048_1_0_0_1_n_n).rhsIdx (ix2 p q)
      ((contrEquiv1 dot_S512x512_S512x2048_S512x2048_1_0_0_1_n_n 512 rfl rfl).symm k) = ix2 k q := by
    funext ax; apply Fin.ext
    match ax with
    | ⟨0, _⟩ => exact rhs_rows_0 _ _ _
    | ⟨1, _⟩ => exact rhs_rows_1 _ _ _
  rw [l, r, truncf_apply]

/-! ## From the panels to the array -/

variable (V : (c : Dev nD) → (b : Ref sig .tc) → Buf (Elt Ideal) ((c : Thread nD τ).loc b))

private theorem rows_hz : (![0, 0] : Fin 2 → Nat) = fun _ => 0 := funext fun a => by fin_cases a <;> rfl

/-- The index maps over the grid: the matrix window stays at block (0, 0); at point `t` the input's and the output's
    windows are both at block (0, t). -/
private theorem rows_idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- A panel's payload is the panel of the whole product: if the body's two operands are the matrix and panel `T` of the
    input (columns `2048·T …`), its payload at `y` is the product's entry at row `y 0`, column `2048·T + y 1`. -/
private theorem rows_pay_rowPool (A : FVec Ideal S512x512 .bf16) (X : FVec Ideal S512x131072 .f32) (x0 : Vec Ideal S512x512 .bf16)
    (x1 : Vec Ideal S512x2048 .f32) (T : Nat) (y : S512x2048.Idx) (i : S512x131072.Idx)
    (h0 : ∀ p k : Fin 512, x0 (ix2 p k) = A (ix2 p k))
    (h1 : ∀ (k : Fin 512) (q : Fin 2048) (n : Fin 131072), n.val = T * 2048 + q.val → x1 (ix2 k q) = X (ix2 k n))
    (hi0 : (i 0).val = (y 0).val) (hi1 : (i 1).val = T * 2048 + (y 1).val) :
    k0_pay1 x0 x1 y = rowPool A X i := by
  obtain ⟨p, q, rfl⟩ : ∃ (p : Fin 512) (q : Fin 2048), y = ix2 p q := ⟨y 0, y 1, eq_ix2 y⟩
  obtain ⟨h, n, rfl⟩ : ∃ (h : Fin 512) (n : Fin 131072), i = ix2 h n := ⟨i 0, i 1, eq_ix2 i⟩
  obtain rfl : h = p := Fin.ext hi0
  rw [rows_pay_apply, rowPool_apply]
  refine Finset.sum_congr rfl fun k _ => ?_
  rw [h0, h1 k q n hi1]

/-- The matrix window's block, at every point, is the whole matrix. -/
private theorem rows_matrix_block (c : Dev nD) (t : Fin cfg0.N) (p k : Fin 512) :
    iblk0 V c 0 t (ix2 p k) = V c main_v29 (ix2 p k) := by
  obtain ⟨e0, e1, -⟩ := rows_idx_facts t
  unfold iblk0
  rw [View.read_apply]
  show V c main_v29 (((cfg0.win 0).blk t).view.emb (ix2 p k)) = V c main_v29 (ix2 p k)
  congr 1
  funext a; apply Fin.ext
  match a with
  | ⟨0, _⟩ => show win0_0.index t (0 : Fin 2) * 512 + 1 * p.val = p.val; omega
  | ⟨1, _⟩ => show win0_0.index t (1 : Fin 2) * 512 + 1 * k.val = k.val; omega

/-- The input window's block at point `t` is the input's panel `t`: all rows, columns `2048·t …`. -/
private theorem rows_input_block (c : Dev nD) (t : Fin cfg0.N) (k : Fin 512) (q : Fin 2048) (n : Fin 131072)
    (hn : n.val = t.val * 2048 + q.val) : iblk0 V c 1 t (ix2 k q) = V c main_v43 (ix2 k n) := by
  obtain ⟨-, -, e2, e3, -⟩ := rows_idx_facts t
  unfold iblk0
  rw [View.read_apply]
  show V c main_v43 (((cfg0.win 1).blk t).view.emb (ix2 k q)) = V c main_v43 (ix2 k n)
  congr 1
  funext a; apply Fin.ext
  match a with
  | ⟨0, _⟩ => show win0_1.index t (0 : Fin 2) * 512 + 1 * k.val = k.val; omega
  | ⟨1, _⟩ => show win0_1.index t (1 : Fin 2) * 2048 + 1 * q.val = n.val; omega

/-- What point `t` writes back is panel `t` of the matrix times the input, both as the region found them. -/
private theorem rows_flushed_eq (c : Dev nD) (t : Fin cfg0.N) :
    (dat0 (F := Ideal) V c).flushed 2 t
      = ((cfg0.win 2).blk t).view.read (Elt Ideal) (rowPool (V c main_v29) (V c main_v43)) := by
  show (cfg0.win 2).cut (grid0.coords t) ((dat0 V c).after 2 t) = _
  rw [after0_2]
  unfold out0_2
  rw [View.canon_unit_zero rows_hz]
  simp only [View.ld_unit_zero (S := S512x512) rows_hz, View.ld_unit_zero (S := S512x2048) rows_hz]
  obtain ⟨-, -, -, -, e4, e5⟩ := rows_idx_facts t
  funext j
  show k0_pay1 (iblk0 V c 0 t) (iblk0 V c 1 t) j
    = rowPool (V c main_v29) (V c main_v43) (((cfg0.win 2).blk t).view.emb j)
  refine rows_pay_rowPool (V c main_v29) (V c main_v43) _ _ t.val j _ (rows_matrix_block V c t)
    (fun k q n hn => rows_input_block V c t k q n hn) ?_ ?_
  · show win0_2.index t (0 : Fin 2) * 512 + 1 * (j 0).val = (j 0).val; omega
  · show win0_2.index t (1 : Fin 2) * 2048 + 1 * (j 1).val = t.val * 2048 + (j 1).val; omega

/-- An index of the output array is in point `t`'s panel iff each coordinate is in the panel's range on its axis. -/
private theorem rows_mem_blk (t : Fin cfg0.N) (i : S512x131072.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v44).slice (win0_2.rect t)).set ↔ _
  rw [View.set_slice_whole, Rect.mem_set_unit]
  exact Iff.rfl

/-- The panels tile the output: column `n` lies in panel `n / 2048`. -/
private theorem rows_cover (i : S512x131072.Idx) :
    ∃ t : Fin cfg0.N, (cfg0.win 2).flush t = true ∧ i ∈ ((cfg0.win 2).blk t).view.set := by
  have hi0 : (i 0).val < 512 := (i 0).isLt
  have hi1 : (i 1).val < 131072 := (i 1).isLt
  obtain ⟨t, ht⟩ : ∃ t : Fin cfg0.N, t.val = (i 1).val / 2048 :=
    ⟨⟨(i 1).val / 2048, lt_of_lt_of_eq (show (i 1).val / 2048 < 64 by omega) N_0.symm⟩, rfl⟩
  obtain ⟨-, -, -, -, e4, e5⟩ := rows_idx_facts t
  refine ⟨t, flush0_2 t, ?_⟩
  rw [rows_mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 2048 ≤ (i 1).val ∧ (i 1).val < win0_2.index t (1 : Fin 2) * 2048 + 2048
    omega

/-- After the region, its output array is the matrix product of its two input arrays as the region found them. -/
theorem region0_value (c : Dev nD) :
    (dat0 (F := Ideal) V c).arrAt 2 cfg0.N = rowPool (V c main_v29) (V c main_v43) :=
  (dat0 V c).arrAt_eq_of_cover 2 (rowPool (V c main_v29) (V c main_v43)) (fun t _ => rows_flushed_eq V c t) rows_cover

end Cert.KernelIdeal.Out

end
-- ==== Proof.KRegion1.lean ====
/-
  What the second kernel region leaves in its output array.

  The region walks 64 groups of 8 slabs. At group `t` the body multiplies, for each of the 8 slabs, the whole 512×512
  matrix with the slab `Y[8·t + i, :, :]` and stores the product as slab `8·t + i` of the output. The groups tile the
  output, and each is the restriction of one whole-array function: the matrix times every slab.
-/
import proofs.«158316_j5549097747077_1_alg».proof.Proof.Gen.KernelIdeal.Frame
import proofs.«158316_j5549097747077_1_alg».proof.Proof.KernelFn
import Idealize.ShloMosaic.Lib.Pipeline.Value
import Idealize.ShloMosaic.PureOps.Ideal.Laws

set_option maxRecDepth 16384

noncomputable section

namespace Cert.KernelIdeal.Out

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The matrix product of the body, read at an index -/

/-- The left operand's row is the result's row. -/
private theorem lhs_slab_0 (j : S512x256.Idx) (k : dot_S512x512_S512x256_S512x256_1_0_0_1_n_n.contr.Idx) :
    (dot_S512x512_S512x256_S512x256_1_0_0_1_n_n.lhsIdx j k 0 : ℕ) = j 0 := by
  simp [DotDims.lhsIdx, dot_S512x512_S512x256_S512x256_1_0_0_1_n_n]; rfl
/-- The left operand's column is the contraction position. -/
private theorem lhs_slab_1 (j : S512x256.Idx) (k : dot_S512x512_S512x256_S512x256_1_0_0_1_n_n.contr.Idx) :
    (dot_S512x512_S512x256_S512x256_1_0_0_1_n_n.lhsIdx j k 1 : ℕ) = k ⟨0, by decide⟩ := by
  simp [DotDims.lhsIdx, dot_S512x512_S512x256_S512x256_1_0_0_1_n_n]; rfl
/-- The right operand's row is the contraction position. -/
private theorem rhs_slab_0 (j : S512x256.Idx) (k : dot_S512x512_S512x256_S512x256_1_0_0_1_n_n.contr.Idx) :
    (dot_S512x512_S512x256_S512x256_1_0_0_1_n_n.rhsIdx j k 0 : ℕ) = k ⟨0, by decide⟩ := by
  simp [DotDims.rhsIdx, dot_S512x512_S512x256_S512x256_1_0_0_1_n_n]; rfl
/-- The right operand's column is the result's column. -/
private theorem rhs_slab_1 (j : S512x256.Idx) (k : dot_S512x512_S512x256_S512x256_1_0_0_1_n_n.contr.Idx) :
    (dot_S512x512_S512x256_S512x256_1_0_0_1_n_n.rhsIdx j k 1 : ℕ) = j 1 := by
  simp [DotDims.rhsIdx, dot_S512x512_S512x256_S512x256_1_0_0_1_n_n]; rfl

/-- The product into the zero accumulator at `(w, c)`: row `w` of the matrix against column `c` of the slab. -/
private theorem slab_matmul_apply (B : FVec Ideal S512x512 .bf16) (Z : FVec Ideal S512x256 .bf16) (w : Fin 512) (c : Fin 256) :
    matmul dot_S512x512_S512x256_S512x256_1_0_0_1_n_n none B Z (constant (F := Ideal) S512x256 .f32 0x00000000#32) (ix2 w c)
      = ∑ k : Fin 512, B (ix2 w k) * Z (ix2 k c) := by
  show FloatOps.matmul dot_S512x512_S512x256_S512x256_1_0_0_1_n_n none B Z (constant S512x256 .f32 0x00000000#32) (ix2 w c) = _
  rw [Ideal.matmul_constant_zero_apply,
    ← Equiv.sum_comp (contrEquiv1 dot_S512x512_S512x256_S512x256_1_0_0_1_n_n 512 rfl rfl).symm]
  refine Finset.sum_congr rfl fun k _ => ?_
  congr 2
  · funext a
    refine Fin.ext ?_
    match a with
    | ⟨0, _⟩ => exact lhs_slab_0 _ _
    | ⟨1, _⟩ => exact (lhs_slab_1 _ _).trans (contrEquiv1_symm_val _ _ _ _ k)
  · funext a
    refine Fin.ext ?_
    match a with
    | ⟨0, _⟩ => exact (rhs_slab_0 _ _).trans (contrEquiv1_symm_val _ _ _ _ k)
    | ⟨1, _⟩ => exact rhs_slab_1 _ _

/-! ## One slab's payload, read at an index -/

/-- One slab's product as the body computes it: the slab's unit axis dropped, the matrix applied, the unit axis restored. -/
private def slabProd (B : FVec Ideal S512x512 .bf16) (v : Vec Ideal S1x512x256 .bf16) : FVec Ideal S1x512x256 .f32 :=
  shapeCast S1x512x256
    (matmul dot_S512x512_S512x256_S512x256_1_0_0_1_n_n none B
      (shapeCast S512x256 v shapeCasts_S1x512x256_S512x256 : FVec Ideal S512x256 .bf16)
      (constant (F := Ideal) S512x256 .f32 0x00000000#32))
    shapeCasts_S512x256_S1x512x256

/-- At `(u, w, c)` it is row `w` of the matrix against column `c` of the slab. -/
private theorem slabProd_apply (B : FVec Ideal S512x512 .bf16) (v : Vec Ideal S1x512x256 .bf16) (u : Fin 1) (w : Fin 512)
    (c : Fin 256) : slabProd B v (ix3 u w c) = ∑ k : Fin 512, B (ix2 w k) * v (ix3 u k c) := by
  unfold slabProd
  refine (shapeCast_addUnit_apply _ _ _ _).trans ?_
  have e : (fun a : Fin 2 => (ix3 u w c : S1x512x256.Idx) a.succ) = (ix2 w c : S512x256.Idx) := by
    funext a
    match a with
    | ⟨0, _⟩ => rfl
    | ⟨1, _⟩ => rfl
  rw [e, slab_matmul_apply]
  refine Finset.sum_congr rfl fun k _ => ?_
  congr 1
  refine (shapeCast_dropUnit_apply _ _ _ _).trans ?_
  congr 1
  funext a
  refine Fin.ext ?_
  match a with
  | ⟨0, _⟩ => show (0 : ℕ) = u.val; omega
  | ⟨1, _⟩ => rfl
  | ⟨2, _⟩ => rfl

/-- The whole-block load of the matrix, cast to its own shape, is the matrix. -/
private theorem matrix_load (x0 : Vec Ideal S512x512 .bf16) : k1_pay5 (View.ld x0 r1_0) = x0 := by
  unfold k1_pay5
  dsimp only
  rw [shapeCast_self]
  exact View.ld_unit_zero (S := S512x512) (funext fun a => by fin_cases a <;> rfl) _ x0

private theorem pay1_eq (B : FVec Ideal S512x512 .bf16) (v : Vec Ideal S1x512x256 .bf16) : k1_pay1 B v = slabProd B v := rfl
private theorem pay2_eq (B : FVec Ideal S512x512 .bf16) (v : Vec Ideal S1x512x256 .bf16) : k1_pay2 B v = slabProd B v := rfl
private theorem pay3_eq (B : FVec Ideal S512x512 .bf16) (v : Vec Ideal S1x512x256 .bf16) : k1_pay3 B v = slabProd B v := rfl
private theorem pay4_eq (B : FVec Ideal S512x512 .bf16) (v : Vec Ideal S1x512x256 .bf16) : k1_pay4 B v = slabProd B v := rfl
private theorem pay6_eq (x0 : Vec Ideal S512x512 .bf16) (v : Vec Ideal S1x512x256 .bf16) :
    k1_pay6 x0 v = slabProd (k1_pay5 x0) v := rfl
private theorem pay7_eq (x0 : Vec Ideal S512x512 .bf16) (v : Vec Ideal S1x512x256 .bf16) :
    k1_pay7 x0 v = slabProd (k1_pay5 x0) v := rfl
private theorem pay8_eq (x0 : Vec Ideal S512x512 .bf16) (v : Vec Ideal S1x512x256 .bf16) :
    k1_pay8 x0 v = slabProd (k1_pay5 x0) v := rfl
private theorem pay9_eq (x0 : Vec Ideal S512x512 .bf16) (v : Vec Ideal S1x512x256 .bf16) :
    k1_pay9 x0 v = slabProd (k1_pay5 x0) v := rfl

/-! ## A group of 8 slabs -/

/-- The matrix applied to every slab of a group: entry `(i, w, c)` is row `w` against the column `x1[i, :, c]`. -/
private def groupPool (x0 : Vec Ideal S512x512 .bf16) (x1 : Vec Ideal S8x512x256 .bf16) : Vec Ideal S8x512x256 .f32 :=
  fun y => ∑ k : Fin 512, x0 (ix2 (y 1) k) * x1 (ix3 (y 0) k (y 2))

/-- The slab stored at offset `i` of the group is the group's function under its rectangle. -/
private theorem slab_piece (x0 : Vec Ideal S512x512 .bf16) (x1 : Vec Ideal S8x512x256 .bf16) (i : Nat)
    (inb : ∀ a, (![i, 0, 0] : Fin 3 → Nat) a + S1x512x256.size a ≤ S8x512x256.size a) (x : S1x512x256.Idx) :
    slabProd x0 (View.ld x1 (Rect.unit (s := S8x512x256) ![i, 0, 0] S1x512x256.size inb)) x
      = groupPool x0 x1 ((Rect.unit (s := S8x512x256) ![i, 0, 0] S1x512x256.size inb).emb x) := by
  obtain ⟨u, w, c, rfl⟩ : ∃ (u : Fin 1) (w : Fin 512) (c : Fin 256), x = ix3 u w c := ⟨x 0, x 1, x 2, eq_ix3 x⟩
  rw [slabProd_apply]
  unfold groupPool
  refine Finset.sum_congr rfl fun k _ => ?_
  congr 1
  · congr 1
    funext a
    refine Fin.ext ?_
    match a with
    | ⟨0, _⟩ => show w.val = 0 + 1 * w.val; omega
    | ⟨1, _⟩ => rfl
  · show x1 _ = x1 _
    congr 1
    funext a
    refine Fin.ext ?_
    match a with
    | ⟨0, _⟩ => rfl
    | ⟨1, _⟩ => show 0 + 1 * k.val = k.val; omega
    | ⟨2, _⟩ => rfl

/-- What the body leaves in the output block is the group's function: each of the 8 stored slabs is its restriction. -/
private theorem out1_2_eq (x0 : Vec Ideal S512x512 .bf16) (x1 : Vec Ideal S8x512x256 .bf16) :
    out1_2 x0 x1 = groupPool x0 x1 := by
  funext y
  unfold out1_2
  rw [pay6_eq, pay7_eq, pay8_eq, pay9_eq, pay1_eq, pay2_eq, pay3_eq, pay4_eq, matrix_load]
  refine View.canon_apply_of_pieces (groupPool x0 x1) _ ?_ y (cover1_2 _ _ _ _ _ _ _ _ y)
  intro p hp
  simp only [List.mem_cons, List.not_mem_nil, or_false] at hp
  rcases hp with rfl | rfl | rfl | rfl | rfl | rfl | rfl | rfl
  · intro x; exact slab_piece x0 x1 7 _ x
  · intro x; exact slab_piece x0 x1 6 _ x
  · intro x; exact slab_piece x0 x1 5 _ x
  · intro x; exact slab_piece x0 x1 4 _ x
  · intro x; exact slab_piece x0 x1 3 _ x
  · intro x; exact slab_piece x0 x1 2 _ x
  · intro x; exact slab_piece x0 x1 1 _ x
  · intro x; exact slab_piece x0 x1 0 _ x

/-- A group's function is the whole array's, read where the group sits: the matrix whole, the slabs from `8·T`. -/
private theorem groupPool_read (x0 : Vec Ideal S512x512 .bf16) (x1 : Vec Ideal S8x512x256 .bf16)
    (B : FVec Ideal S512x512 .bf16) (Y : FVec Ideal S512x512x256 .bf16) (T : Nat)
    (h0 : ∀ y : S512x512.Idx, x0 y = B y)
    (h1 : ∀ (y : S8x512x256.Idx) (z : S512x512x256.Idx), (z 0).val = T * 8 + (y 0).val → (z 1).val = (y 1).val →
      (z 2).val = (y 2).val → x1 y = Y z)
    (j : S8x512x256.Idx) (i : S512x512x256.Idx) (hi0 : (i 0).val = T * 8 + (j 0).val) (hi1 : (i 1).val = (j 1).val)
    (hi2 : (i 2).val = (j 2).val) : groupPool x0 x1 j = colPool B Y i := by
  unfold groupPool colPool
  refine Finset.sum_congr rfl fun k _ => ?_
  rw [h0, h1 (ix3 (j 0) k (j 2)) (ix3 (i 0) k (i 2)) hi0 rfl hi2]
  congr 2
  funext a
  refine Fin.ext ?_
  match a with
  | ⟨0, _⟩ => exact hi1.symm
  | ⟨1, _⟩ => rfl

/-! ## From the groups to the array -/

variable (V : (c : Dev nD) → (b : Ref sig .tc) → Buf (Elt Ideal) ((c : Thread nD τ).loc b))

/-- The printed index maps, decided over the grid: the matrix's window stays at block `(0, 0)`, the two slab windows
    sit at block `(t, 0, 0)`. -/
private theorem group_index : ∀ t : Fin cfg1.N,
    win1_0.index t (0 : Fin 2) = 0 ∧ win1_0.index t (1 : Fin 2) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- What point `t` writes back is group `t` of the slab-wise product of the two input arrays. -/
private theorem group_flushed (c : Dev nD) (t : Fin cfg1.N) :
    (dat1 (F := Ideal) V c).flushed 2 t
      = ((cfg1.win 2).blk t).view.read (Elt Ideal) (colPool (V c main_v42) (V c main_v45)) := by
  show (cfg1.win 2).cut (grid1.coords t) ((dat1 (F := Ideal) V c).after 2 t) = _
  rw [after1_2]
  obtain ⟨e0, e1, e2, e3, e4, e5, e6, e7⟩ := group_index t
  funext j
  refine (congrFun (out1_2_eq (iblk1 V c 0 t) (iblk1 V c 1 t)) j).trans ?_
  refine groupPool_read _ _ (V c main_v42) (V c main_v45) t.val ?_ ?_ j (((cfg1.win 2).blk t).view.emb j) ?_ ?_ ?_
  · intro y
    show V c main_v42 (((cfg1.win 0).blk t).view.emb y) = V c main_v42 y
    congr 1
    funext a
    refine Fin.ext ?_
    match a with
    | ⟨0, _⟩ => show win1_0.index t (0 : Fin 2) * 512 + 1 * (y 0).val = (y 0).val; omega
    | ⟨1, _⟩ => show win1_0.index t (1 : Fin 2) * 512 + 1 * (y 1).val = (y 1).val; omega
  · intro y z h0 h1 h2
    show V c main_v45 (((cfg1.win 1).blk t).view.emb y) = V c main_v45 z
    congr 1
    funext a
    refine Fin.ext ?_
    match a with
    | ⟨0, _⟩ => show win1_1.index t (0 : Fin 3) * 8 + 1 * (y 0).val = (z 0).val; omega
    | ⟨1, _⟩ => show win1_1.index t (1 : Fin 3) * 512 + 1 * (y 1).val = (z 1).val; omega
    | ⟨2, _⟩ => show win1_1.index t (2 : Fin 3) * 256 + 1 * (y 2).val = (z 2).val; omega
  · show win1_2.index t (0 : Fin 3) * 8 + 1 * (j 0).val = t.val * 8 + (j 0).val; omega
  · show win1_2.index t (1 : Fin 3) * 512 + 1 * (j 1).val = (j 1).val; omega
  · show win1_2.index t (2 : Fin 3) * 256 + 1 * (j 2).val = (j 2).val; omega

/-- An index of the output array is in point `t`'s group iff each coordinate is in the group's range on its axis. -/
private theorem mem_group (t : Fin cfg1.N) (i : S512x512x256.Idx) :
    i ∈ ((cfg1.win 2).blk t).view.set ↔ ∀ a : Fin 3, win1_2.index t a * S8x512x256.size a ≤ (i a).val
      ∧ (i a).val < win1_2.index t a * S8x512x256.size a + S8x512x256.size a := by
  show i ∈ ((View.whole main_v46).slice (win1_2.rect t)).set ↔ _
  rw [View.set_slice_whole, Rect.mem_set_unit]
  exact Iff.rfl

/-- Slab `h` is in group `h / 8`: the groups cover the output array. -/
private theorem groups_cover (i : S512x512x256.Idx) :
    ∃ t : Fin cfg1.N, (cfg1.win 2).flush t = true ∧ i ∈ ((cfg1.win 2).blk t).view.set := by
  have hi0 : (i 0).val < 512 := (i 0).isLt
  have hi1 : (i 1).val < 512 := (i 1).isLt
  have hi2 : (i 2).val < 256 := (i 2).isLt
  have hN : cfg1.N = 64 := N_1
  obtain ⟨t, ht⟩ : ∃ t : Fin cfg1.N, t.val = (i 0).val / 8 := ⟨⟨(i 0).val / 8, by rw [hN]; omega⟩, rfl⟩
  obtain ⟨e0, e1, e2, e3, e4, e5, e6, e7⟩ := group_index t
  refine ⟨t, flush1_2 t, ?_⟩
  rw [mem_group]
  intro a
  match a with
  | ⟨0, _⟩ =>
    show win1_2.index t (0 : Fin 3) * 8 ≤ (i 0).val ∧ (i 0).val < win1_2.index t (0 : Fin 3) * 8 + 8
    omega
  | ⟨1, _⟩ =>
    show win1_2.index t (1 : Fin 3) * 512 ≤ (i 1).val ∧ (i 1).val < win1_2.index t (1 : Fin 3) * 512 + 512
    omega
  | ⟨2, _⟩ =>
    show win1_2.index t (2 : Fin 3) * 256 ≤ (i 2).val ∧ (i 2).val < win1_2.index t (2 : Fin 3) * 256 + 256
    omega

/-- After the region, its output array is the slab-wise matrix product of its two input arrays as the region found them. -/
theorem region1_value (c : Dev nD) :
    (dat1 (F := Ideal) V c).arrAt 2 cfg1.N = colPool (V c main_v42) (V c main_v45) := by
  exact (dat1 (F := Ideal) V c).arrAt_eq_of_cover 2 (colPool (V c main_v42) (V c main_v45))
    (fun t _ => group_flushed V c t) (groups_cover)

end Cert.KernelIdeal.Out

end
-- ==== Proof.KHost.lean ====
/-
  What the host operations before the first kernel region leave in the buffers the regions read.

  The two averaging matrices are the printed chains applied to the two mask rows, and the flattened image is the image
  with its unit axis dropped and its last two axes merged; no later operation writes the column matrix before the second
  region reads it.

  The operations run in five stretches. Each stretch is read on its own, from arbitrary contents before it: the buffers
  it writes as the printed operations applied to the buffers it reads, the buffers it does not write unchanged. The
  three statements are these readings composed from the launch contents.
-/
import proofs.«158316_j5549097747077_1_alg».proof.Proof.Gen.KernelIdeal.Frame
import proofs.«158316_j5549097747077_1_alg».proof.Proof.KernelFn
import Idealize.ShloMosaic.Lib.StableHlo.Run

set_option maxRecDepth 16384

noncomputable section

namespace Cert.KernelIdeal.Out

open Cert.KernelIdeal Cert.KernelIdeal.Gen
open Idealize.ShloMosaic Idealize.ShloMosaic.TcCoe Idealize.ShloMosaic.ValueIdx Idealize.SL.Sem
open Idealize.ShloMosaic.Pipeline (Dat Cfg Window)

section Stretches
variable {F : FTy → Type} [FloatOps F]
variable (V : Valuation τ sig (Elt F))

/-! ## The first stretch: the image loses its unit axis, the first mask row becomes change flags -/

private theorem a0_v0 :
    (StableHlo.after hostOps0 V (Proc.devRef .tc main_v0) : FVec F S512x512x256 .f32)
      = shapeCast S512x512x256 (V (Proc.devRef .tc main_arg0) : FVec F S1x512x512x256 .f32) shapeCasts_S1x512x512x256_S512x512x256 := by
  simp only [hostOps0]
  after_results
  rfl

private theorem a0_v7 :
    (StableHlo.after hostOps0 V (Proc.devRef .tc main_v7) : IVec S512 32)
      = Cert.SegIds.change bcast_S_S1 slices_S512_S511_1 slices_S512_S511_0 natLt_1_32 concatenates_S1_S511_S512_d0 (shapeCast S512 (V (Proc.devRef .tc main_arg1) : IVec S1x512 32) shapeCasts_S1x512_S512) := by
  simp only [hostOps0]
  after_results
  rfl

private theorem a0_arg2 :
    StableHlo.after hostOps0 V (Proc.devRef .tc main_arg2) = V (Proc.devRef .tc main_arg2) := by
  simp only [hostOps0]
  after_results

/-! ## The second stretch: the running sum of the first flags -/

private theorem a1_v8 :
    (StableHlo.after hostOps0_1 V (Proc.devRef .tc main_v8) : IVec S512 32)
      = Host.reduceWindow IntOp.addi ![512] ![1] ![511] ![0] (V (Proc.devRef .tc main_v7) : IVec S512 32)
          (broadcastInDim S_ ![] bcast_S_S_ (constantI S_ 32 0#32)) reduceWindows_S512_S512_w512s1p511_0 h_S_ := by
  simp only [hostOps0_1]
  after_results
  simp only [StableHlo.TRef.ofBuf, StableHlo.TRef.toBuf, cast_eq]

private theorem a1_v0 :
    StableHlo.after hostOps0_1 V (Proc.devRef .tc main_v0) = V (Proc.devRef .tc main_v0) := by
  simp only [hostOps0_1]
  after_results

private theorem a1_arg2 :
    StableHlo.after hostOps0_1 V (Proc.devRef .tc main_arg2) = V (Proc.devRef .tc main_arg2) := by
  simp only [hostOps0_1]
  after_results

/-! ## The third stretch: the second mask row becomes change flags -/

private theorem a2_v15 :
    (StableHlo.after hostOps0_2 V (Proc.devRef .tc main_v15) : IVec S512 32)
      = Cert.SegIds.change bcast_S_S1 slices_S512_S511_1 slices_S512_S511_0 natLt_1_32 concatenates_S1_S511_S512_d0 (shapeCast S512 (V (Proc.devRef .tc main_arg2) : IVec S1x512 32) shapeCasts_S1x512_S512) := by
  simp only [hostOps0_2]
  after_results
  rfl

private theorem a2_v8 :
    StableHlo.after hostOps0_2 V (Proc.devRef .tc main_v8) = V (Proc.devRef .tc main_v8) := by
  simp only [hostOps0_2]
  after_results

private theorem a2_v0 :
    StableHlo.after hostOps0_2 V (Proc.devRef .tc main_v0) = V (Proc.devRef .tc main_v0) := by
  simp only [hostOps0_2]
  after_results

/-! ## The fourth stretch: the running sum of the second flags -/

private theorem a3_v16 :
    (StableHlo.after hostOps0_3 V (Proc.devRef .tc main_v16) : IVec S512 32)
      = Host.reduceWindow IntOp.addi ![512] ![1] ![511] ![0] (V (Proc.devRef .tc main_v15) : IVec S512 32)
          (broadcastInDim S_ ![] bcast_S_S_ (constantI S_ 32 0#32)) reduceWindows_S512_S512_w512s1p511_0 h_S_ := by
  simp only [hostOps0_3]
  after_results
  simp only [StableHlo.TRef.ofBuf, StableHlo.TRef.toBuf, cast_eq]

private theorem a3_v8 :
    StableHlo.after hostOps0_3 V (Proc.devRef .tc main_v8) = V (Proc.devRef .tc main_v8) := by
  simp only [hostOps0_3]
  after_results

private theorem a3_v0 :
    StableHlo.after hostOps0_3 V (Proc.devRef .tc main_v0) = V (Proc.devRef .tc main_v0) := by
  simp only [hostOps0_3]
  after_results

/-! ## The fifth stretch: each id vector becomes an averaging matrix, the image's last two axes merge -/

private theorem a4_v29 :
    (StableHlo.after hostOps0_4 V (Proc.devRef .tc main_v29) : FVec F S512x512 .bf16)
      = Cert.AvgMat.avgMat avgFacts (V (Proc.devRef .tc main_v8) : IVec S512 32) := by
  simp only [hostOps0_4]
  after_results_simp
  rfl

private theorem a4_v42 :
    (StableHlo.after hostOps0_4 V (Proc.devRef .tc main_v42) : FVec F S512x512 .bf16)
      = Cert.AvgMat.avgMat avgFacts (V (Proc.devRef .tc main_v16) : IVec S512 32) := by
  simp only [hostOps0_4]
  after_results_simp
  rfl

private theorem a4_v43 :
    (StableHlo.after hostOps0_4 V (Proc.devRef .tc main_v43) : FVec F S512x131072 .f32)
      = shapeCast S512x131072 (V (Proc.devRef .tc main_v0) : FVec F S512x512x256 .f32) shapeCasts_S512x512x256_S512x131072 := by
  simp only [hostOps0_4]
  after_results_simp
  rfl

end Stretches

section Fold
variable {F : FTy → Type} [FloatOps F]
variable (m : (ℓ : Loc nD τ sig) → Buf (Elt F) ℓ) (ρ : Dev nD → PrngReg)

/-! ## The fold read at the three buffers that feed the last stretch -/

/-- The first id vector, once the fourth stretch has run. -/
private theorem W4_v8 (c : Dev nD) :
    (W4 m ρ c (Proc.devRef .tc main_v8) : IVec S512 32) = ids (m ((c.tc : Thread nD τ).loc main_arg1)) := by
  show StableHlo.after hostOps0_3 (W3 m ρ c) (Proc.devRef .tc main_v8) = _
  rw [a3_v8]
  show StableHlo.after hostOps0_2 (W2 m ρ c) (Proc.devRef .tc main_v8) = _
  rw [a2_v8]
  show StableHlo.after hostOps0_1 (W1 m ρ c) (Proc.devRef .tc main_v8) = _
  rw [a1_v8]
  show Host.reduceWindow IntOp.addi ![512] ![1] ![511] ![0] (StableHlo.after hostOps0 (W0 m ρ c) (Proc.devRef .tc main_v7) : IVec S512 32)
          (broadcastInDim S_ ![] bcast_S_S_ (constantI S_ 32 0#32)) reduceWindows_S512_S512_w512s1p511_0 h_S_ = _
  rw [a0_v7]
  rfl

/-- The second id vector, once the fourth stretch has run. -/
private theorem W4_v16 (c : Dev nD) :
    (W4 m ρ c (Proc.devRef .tc main_v16) : IVec S512 32) = ids (m ((c.tc : Thread nD τ).loc main_arg2)) := by
  show StableHlo.after hostOps0_3 (W3 m ρ c) (Proc.devRef .tc main_v16) = _
  rw [a3_v16]
  show Host.reduceWindow IntOp.addi ![512] ![1] ![511] ![0] (StableHlo.after hostOps0_2 (W2 m ρ c) (Proc.devRef .tc main_v15) : IVec S512 32)
          (broadcastInDim S_ ![] bcast_S_S_ (constantI S_ 32 0#32)) reduceWindows_S512_S512_w512s1p511_0 h_S_ = _
  rw [a2_v15]
  show Host.reduceWindow IntOp.addi ![512] ![1] ![511] ![0]
          (Cert.SegIds.change bcast_S_S1 slices_S512_S511_1 slices_S512_S511_0 natLt_1_32 concatenates_S1_S511_S512_d0
            (shapeCast S512 (StableHlo.after hostOps0_1 (W1 m ρ c) (Proc.devRef .tc main_arg2) : IVec S1x512 32) shapeCasts_S1x512_S512))
          (broadcastInDim S_ ![] bcast_S_S_ (constantI S_ 32 0#32)) reduceWindows_S512_S512_w512s1p511_0 h_S_ = _
  rw [a1_arg2]
  show Host.reduceWindow IntOp.addi ![512] ![1] ![511] ![0]
          (Cert.SegIds.change bcast_S_S1 slices_S512_S511_1 slices_S512_S511_0 natLt_1_32 concatenates_S1_S511_S512_d0
            (shapeCast S512 (StableHlo.after hostOps0 (W0 m ρ c) (Proc.devRef .tc main_arg2) : IVec S1x512 32) shapeCasts_S1x512_S512))
          (broadcastInDim S_ ![] bcast_S_S_ (constantI S_ 32 0#32)) reduceWindows_S512_S512_w512s1p511_0 h_S_ = _
  rw [a0_arg2]
  rfl

/-- The image without its unit axis, once the fourth stretch has run. -/
private theorem W4_v0 (c : Dev nD) :
    (W4 m ρ c (Proc.devRef .tc main_v0) : FVec F S512x512x256 .f32)
      = shapeCast S512x512x256 (m ((c.tc : Thread nD τ).loc main_arg0)) shapeCasts_S1x512x512x256_S512x512x256 := by
  show StableHlo.after hostOps0_3 (W3 m ρ c) (Proc.devRef .tc main_v0) = _
  rw [a3_v0]
  show StableHlo.after hostOps0_2 (W2 m ρ c) (Proc.devRef .tc main_v0) = _
  rw [a2_v0]
  show StableHlo.after hostOps0_1 (W1 m ρ c) (Proc.devRef .tc main_v0) = _
  rw [a1_v0]
  show StableHlo.after hostOps0 (W0 m ρ c) (Proc.devRef .tc main_v0) = _
  rw [a0_v0]

end Fold

variable (m : (ℓ : Loc nD τ sig) → Buf (Elt Ideal) ℓ) (ρ : Dev nD → PrngReg)

/-- The row averaging matrix at the first region's entry. -/
theorem V5_rowMat (c : Dev nD) :
    (V5 m ρ c main_v29 : FVec Ideal S512x512 .bf16) = Cert.AvgMat.avgMat (F := Ideal) avgFacts (ids (m ((c.tc : Thread nD τ).loc main_arg1))) := by
  show (StableHlo.after hostOps0_4 (W4 m ρ c) (Proc.devRef .tc main_v29) : FVec Ideal S512x512 .bf16) = _
  rw [a4_v29, W4_v8]

/-- The column averaging matrix at the first region's entry. -/
theorem V5_colMat (c : Dev nD) :
    (V5 m ρ c main_v42 : FVec Ideal S512x512 .bf16) = Cert.AvgMat.avgMat (F := Ideal) avgFacts (ids (m ((c.tc : Thread nD τ).loc main_arg2))) := by
  show (StableHlo.after hostOps0_4 (W4 m ρ c) (Proc.devRef .tc main_v42) : FVec Ideal S512x512 .bf16) = _
  rw [a4_v42, W4_v16]

/-- The flattened image at the first region's entry. -/
theorem V5_image (c : Dev nD) :
    (V5 m ρ c main_v43 : FVec Ideal S512x131072 .f32) = shapeCast S512x131072 (shapeCast S512x512x256 (m ((c.tc : Thread nD τ).loc main_arg0))
      shapeCasts_S1x512x512x256_S512x512x256) shapeCasts_S512x512x256_S512x131072 := by
  show (StableHlo.after hostOps0_4 (W4 m ρ c) (Proc.devRef .tc main_v43) : FVec Ideal S512x131072 .f32) = _
  rw [a4_v43, W4_v0]

end Cert.KernelIdeal.Out

end
-- ==== Proof.KValue.lean ====
/-
  The kernel program's result buffer, after the run, as one function of the three arguments.

  The last host operation restores the unit axis of the second region's output; that output is the column matrix times
  every slab of the second region's input; that input is the first region's output with its flattened axis split; the
  first region's output is the row matrix times the flattened image; and the two matrices and the flattened image are
  what the host operations before the first region computed from the arguments.
-/
import proofs.«158316_j5549097747077_1_alg».proof.Proof.KRegion0
import proofs.«158316_j5549097747077_1_alg».proof.Proof.KRegion1
import proofs.«158316_j5549097747077_1_alg».proof.Proof.KHost
import Idealize.ShloMosaic.Lib.StableHlo.Run

set_option maxRecDepth 16384

noncomputable section

namespace Cert.KernelIdeal.Out

open Cert.KernelIdeal Cert.KernelIdeal.Gen
open Idealize.ShloMosaic Idealize.ShloMosaic.TcCoe Idealize.ShloMosaic.ValueIdx Idealize.SL.Sem
open Idealize.ShloMosaic.Pipeline (Dat Cfg Window)

open Idealize.ShloMosaic.StableHlo

variable (m : (ℓ : Loc nD τ sig) → Buf (Elt Ideal) ℓ) (ρ : Dev nD → PrngReg)

/-- The first region's output array at its exit: the row matrix times the flattened image. -/
theorem W6_rows (c : Dev nD) :
    (W6 m ρ c (Proc.devRef .tc main_v44) : FVec Ideal S512x131072 .bf16)
      = rowPool (Cert.AvgMat.avgMat (F := Ideal) avgFacts (ids (m ((c.tc : Thread nD τ).loc main_arg1))))
          (shapeCast S512x131072 (shapeCast S512x512x256 (m ((c.tc : Thread nD τ).loc main_arg0))
            shapeCasts_S1x512x512x256_S512x512x256) shapeCasts_S512x512x256_S512x131072) := by
  refine (W6_arr m ρ c 2).trans ?_
  rw [region0_value (V5 m ρ) c, V5_rowMat m ρ c, V5_image m ρ c]

/-- The column matrix is still in its buffer at the second region's entry. -/
theorem V7_colMat (c : Dev nD) :
    (V7 m ρ c main_v42 : FVec Ideal S512x512 .bf16)
      = Cert.AvgMat.avgMat (F := Ideal) avgFacts (ids (m ((c.tc : Thread nD τ).loc main_arg2))) := by
  have h1 : V7 m ρ c main_v42 = W6 m ρ c (Proc.devRef .tc main_v42) := by
    show StableHlo.after hostOps1 (W6 m ρ c) (Proc.devRef .tc main_v42) = _
    after_results
  have h2 : W6 m ρ c (Proc.devRef .tc main_v42) = W5 m ρ c (Proc.devRef .tc main_v42) :=
    W6_of_ne m ρ c main_v42 (by decide)
  exact h1.trans (h2.trans (V5_colMat m ρ c))

/-- The second region's input array at its entry: the first region's output with its flattened axis split. -/
theorem V7_slabs (c : Dev nD) :
    (V7 m ρ c main_v45 : FVec Ideal S512x512x256 .bf16)
      = shapeCast S512x512x256 (W6 m ρ c (Proc.devRef .tc main_v44) : FVec Ideal S512x131072 .bf16)
          shapeCasts_S512x131072_S512x512x256 := by
  show StableHlo.after hostOps1 (W6 m ρ c) (Proc.devRef .tc main_v45) = _
  after_results
  rfl

/-- THE RESULT BUFFER after the run is the kernel program's function of the arguments. -/
theorem W9_out (c : Dev nD) :
    (W9 m ρ c (Proc.devRef .tc main_v47) : FVec Ideal S1x512x512x256 .f32)
      = out (m ((c.tc : Thread nD τ).loc main_arg0)) (m ((c.tc : Thread nD τ).loc main_arg1))
          (m ((c.tc : Thread nD τ).loc main_arg2)) := by
  have h1 : (W9 m ρ c (Proc.devRef .tc main_v47) : FVec Ideal S1x512x512x256 .f32)
      = broadcastInDim S1x512x512x256 ![1, 2, 3] bcast_S512x512x256_S1x512x512x256_1_2_3
          (W8 m ρ c (Proc.devRef .tc main_v46) : FVec Ideal S512x512x256 .f32) := by
    show StableHlo.after hostOps2 (W8 m ρ c) (Proc.devRef .tc main_v47) = _
    after_results
  have h2 : (W8 m ρ c (Proc.devRef .tc main_v46) : FVec Ideal S512x512x256 .f32)
      = colPool (V7 m ρ c main_v42) (V7 m ρ c main_v45) :=
    (W8_arr m ρ c 2).trans (region1_value (V7 m ρ) c)
  rw [h1, h2, V7_colMat m ρ c, V7_slabs m ρ c, W6_rows m ρ c]
  rfl

end Cert.KernelIdeal.Out

end
-- ==== Proof.KIndex.lean ====
/-
  The kernel program's function at an index: the image pooled by two matrix products.

  Restoring the unit axis reads the slab array at `(h, w, c)`; the column product there is the sum over `w'` of the column
  matrix's `(w, w')` entry times the split row product at `(h, w', c)`, which is the row product at `(h, 256·w' + c)`: the
  sum over `h'` of the row matrix's `(h, h')` entry times the flattened image at `(h', 256·w' + c)`, which is the image at
  `(0, h', w', c)`.
-/
import proofs.«158316_j5549097747077_1_alg».proof.Proof.KernelFn
import proofs.«158316_j5549097747077_1_alg».proof.Proof.Spec
import Idealize.ShloMosaic.Lib.ValueIdx
import Idealize.ShloMosaic.Lib.ValueLayout
import Idealize.ShloMosaic.Lib.Pipeline.Value

noncomputable section

namespace Cert.KernelIdeal.Out

open Cert.KernelIdeal Cert.KernelIdeal.Gen Idealize.ShloMosaic Idealize.ShloMosaic.ValueIdx

/-! ## The layout operations read at an index -/

/-- Restoring the leading unit axis: the result at `(z, h, w, c)` is the operand at `(h, w, c)`. -/
private theorem addUnit_apply {α : Type} (Y : S512x512x256.Idx → α) (z : Fin 1) (h w : Fin 512) (c : Fin 256) :
    broadcastInDim S1x512x512x256 ![1, 2, 3] bcast_S512x512x256_S1x512x512x256_1_2_3 Y (ix4 z h w c) = Y (ix3 h w c) :=
  broadcastInDim_apply _ _ Y _ (ix3 h w c) (fun a => match a with | ⟨0, _⟩ => rfl | ⟨1, _⟩ => rfl | ⟨2, _⟩ => rfl)

/-- A column position `256·k + c` with `k < 512` and `c < 256` is below `131072`. -/
private theorem col_lt (k : Fin 512) (c : Fin 256) : k.val * 256 + c.val < 131072 := by
  have := k.isLt; have := c.isLt; omega

/-- Splitting the second axis: `[512, 131072]` read as `[512, 512, 256]` at `(h, k, c)` is the operand at
    `(h, 256·k + c)`. -/
private theorem split_apply {α : Type} (Z : S512x131072.Idx → α) (h k : Fin 512) (c : Fin 256) :
    shapeCast S512x512x256 Z shapeCasts_S512x131072_S512x512x256 (ix3 h k c)
      = Z (ix2 h (⟨k.val * 256 + c.val, col_lt k c⟩ : Fin 131072)) :=
  shapeCast_apply Z _ (ix3 h k c) (ix2 h (⟨k.val * 256 + c.val, col_lt k c⟩ : Fin 131072)) (by
    rw [Shape.rowMajor_val_two, Shape.rowMajor_val_three]
    show h.val * 131072 + (k.val * 256 + c.val) = (h.val * 512 + k.val) * 256 + c.val
    omega)

/-- Flattening the last two axes: `[512, 512, 256]` read as `[512, 131072]` at `(h, 256·k + c)` is the operand at
    `(h, k, c)`. -/
private theorem flat_apply {α : Type} (Y : S512x512x256.Idx → α) (h k : Fin 512) (c : Fin 256) :
    shapeCast S512x131072 Y shapeCasts_S512x512x256_S512x131072 (ix2 h (⟨k.val * 256 + c.val, col_lt k c⟩ : Fin 131072))
      = Y (ix3 h k c) :=
  shapeCast_apply Y _ (ix2 h (⟨k.val * 256 + c.val, col_lt k c⟩ : Fin 131072)) (ix3 h k c) (by
    rw [Shape.rowMajor_val_two, Shape.rowMajor_val_three]
    show (h.val * 512 + k.val) * 256 + c.val = h.val * 131072 + (k.val * 256 + c.val)
    omega)

/-- Dropping the leading unit axis: `[1, 512, 512, 256]` read as `[512, 512, 256]` at `(h, k, c)` is the operand at
    `(0, h, k, c)`. -/
private theorem dropUnit_apply {α : Type} (X : S1x512x512x256.Idx → α) (h k : Fin 512) (c : Fin 256) :
    shapeCast S512x512x256 X shapeCasts_S1x512x512x256_S512x512x256 (ix3 h k c) = X (ix4 (0 : Fin 1) h k c) :=
  shapeCast_apply X _ (ix3 h k c) (ix4 (0 : Fin 1) h k c) (by
    rw [Shape.rowMajor_val_three, Shape.rowMajor_val_four]
    show ((0 * 512 + h.val) * 512 + k.val) * 256 + c.val = (h.val * 512 + k.val) * 256 + c.val
    omega)

/-! ## The function at an index -/

/-- THE KERNEL PROGRAM'S FUNCTION AT `(0, h, w, c)`. -/
theorem out_apply (x : FVec Ideal S1x512x512x256 .f32) (hm vm : IVec S1x512 32) (h w : Fin 512) (c : Fin 256) :
    out x hm vm (ix4 (0 : Fin 1) h w c)
      = Cert.Spec.pooledMat (fun k : Fin 512 => ids hm (ix1 k)) (fun k : Fin 512 => ids vm (ix1 k))
          (fun h' w' c' => x (ix4 (0 : Fin 1) h' w' c')) h w c := by
  unfold out
  rw [addUnit_apply, colPool_apply]
  unfold Cert.Spec.pooledMat Cert.Spec.matForm
  refine Finset.sum_congr rfl fun k _ => ?_
  rw [Cert.AvgMat.avgMat_apply avgFacts, split_apply, rowPool_apply]
  refine congrArg (fun s => _ * s) (Finset.sum_congr rfl fun k' _ => ?_)
  rw [Cert.AvgMat.avgMat_apply avgFacts, flat_apply, dropUnit_apply]

end Cert.KernelIdeal.Out

end
-- ==== Proof.RefStage.lean ====
/-
  One pooling stage of the reference, read at an index.

  The reference pools a three-axis array `x : [512, A, B]` along its first axis by segment ids: it adds every slab
  `x[a', :, :]` into slab `ids a'` of a zero array (an accumulating scatter), counts the slabs per id the same way,
  divides by the count (never below one), and reads slab `ids a` back for every `a` (a gather whose start index is
  first wrapped if negative and then clamped). With every id in `[0, 512)` the wrap and the clamp do nothing, an update
  lands on slab `s` exactly when its id is `s`, and the stage at `(a, b, c)` is the class mean of the column
  `a' ↦ x (a', b, c)` at `a`.
-/
import proofs.«158316_j5549097747077_1_alg».proof.Proof.Spec
import Idealize.ShloMosaic.PureOps
import Idealize.ShloMosaic.PureOps.Ideal
import Idealize.ShloMosaic.Lib.ValueIdx
import Idealize.ShloMosaic.Lib.IdealHost

noncomputable section

namespace Cert.RefStage

open Idealize.ShloMosaic Idealize.ShloMosaic.ValueIdx

abbrev S512x512x256 : Shape := ⟨3, ![512, 512, 256]⟩
abbrev S512 : Shape := ⟨1, ![512]⟩
abbrev S_ : Shape := ⟨0, ![]⟩
abbrev S512x1 : Shape := ⟨2, ![512, 1]⟩
abbrev S512x1x1 : Shape := ⟨3, ![512, 1, 1]⟩

/-- The side conditions of the stage's operations, as the printed program states them. -/
structure Facts : Prop where
  bcast_S_S512x512x256 : S_.BroadcastsInDim S512x512x256 (![] : Fin 0 → Fin S512x512x256.rank)
  bcast_S512_S512x1_0 : S512.BroadcastsInDim S512x1 (![0] : Fin 1 → Fin S512x1.rank)
  bcast_S_S512 : S_.BroadcastsInDim S512 (![] : Fin 0 → Fin S512.rank)
  bcast_S512_S512x1x1_0 : S512.BroadcastsInDim S512x1x1 (![0] : Fin 1 → Fin S512x1x1.rank)
  bcast_S512x1x1_S512x512x256_0_1_2 : S512x1x1.BroadcastsInDim S512x512x256 (![0, 1, 2] : Fin 3 → Fin S512x512x256.rank)
  scatter3_wf : ScatterDims.WF S512x512x256 S512x1 S512x512x256 [1, 2] [0] [0] 1
  scatter1_wf : ScatterDims.WF S512 S512x1 S512 [] [0] [0] 1
  gather_wf : GatherDims.WF S512x512x256 S512x1 S512x512x256 [1, 2] [0] [] [0] [] 1 ![1, 512, 256]

/-- The slab scatter's dimension numbers: one index per update slab, naming axis 0, which is inserted. -/
def scat3 (hf : Facts) : ScatterDims S512x512x256 S512x1 S512x512x256 where
  updateWindowDims := [1, 2]
  insertedWindowDims := [0]
  scatterDimsToOperandDims := [0]
  indexVectorDim := 1
  wf := hf.scatter3_wf
/-- The count scatter's dimension numbers: one index per scalar update. -/
def scat1 (hf : Facts) : ScatterDims S512 S512x1 S512 where
  updateWindowDims := []
  insertedWindowDims := [0]
  scatterDimsToOperandDims := [0]
  indexVectorDim := 1
  wf := hf.scatter1_wf
/-- The slab gather's dimension numbers: one start index per result slab, naming axis 0, which is collapsed. -/
def gath (hf : Facts) : GatherDims S512x512x256 S512x1 S512x512x256 where
  offsetDims := [1, 2]
  collapsedSliceDims := [0]
  operandBatchingDims := []
  startIndicesBatchingDims := []
  startIndexMap := [0]
  indexVectorDim := 1
  sliceSizes := ![1, 512, 256]
  wf := hf.gather_wf

variable {F : FTy → Type} [FloatOps F]

/-- The per-id slab sums. -/
def segSum (hf : Facts) (ids : IVec S512 32) (x : FVec F S512x512x256 .f32) : FVec F S512x512x256 .f32 :=
  Host.scatterAdd (scat3 hf) (broadcastInDim S512x512x256 ![] hf.bcast_S_S512x512x256 (constant S_ .f32 0x00000000#32))
    (broadcastInDim S512x1 ![0] hf.bcast_S512_S512x1_0 ids) x

/-- The per-id slab counts, never below one. -/
def segCnt (hf : Facts) (ids : IVec S512 32) : FVec F S512 .f32 :=
  maximumf
    (Host.scatterAdd (scat1 hf) (broadcastInDim S512 ![] hf.bcast_S_S512 (constant S_ .f32 0x00000000#32))
      (broadcastInDim S512x1 ![0] hf.bcast_S512_S512x1_0 ids)
      (broadcastInDim S512 ![] hf.bcast_S_S512 (constant S_ .f32 0x3F800000#32)))
    (broadcastInDim S512 ![] hf.bcast_S_S512 (constant S_ .f32 0x3F800000#32))

/-- The start-index column of the gather: a negative id wrapped by 512, laid out as a column. -/
def idxCol (hf : Facts) (ids : IVec S512 32) : IVec S512x1 32 :=
  broadcastInDim S512x1 ![0] hf.bcast_S512_S512x1_0
    (select (cmpi .slt ids (broadcastInDim S512 ![] hf.bcast_S_S512 (constantI S_ 32 0#32)))
      (addi ids (broadcastInDim S512 ![] hf.bcast_S_S512 (constantI S_ 32 512#32))) ids)

/-- One pooling stage: per-id means, read back at every position's id. -/
def stage (hf : Facts) (ids : IVec S512 32) (x : FVec F S512x512x256 .f32) : FVec F S512x512x256 .f32 :=
  Host.gather (gath hf)
    (Host.divf (segSum hf ids x)
      (broadcastInDim S512x512x256 ![0, 1, 2] hf.bcast_S512x1x1_S512x512x256_0_1_2
        (broadcastInDim S512x1x1 ![0] hf.bcast_S512_S512x1x1_0 (segCnt hf ids))))
    (idxCol hf ids)

end Cert.RefStage

end
-- ==== Proof.RefOut.lean ====
/-
  What the reference computes, as one function of its three arguments.

  The mask rows become segment ids (rows from the first mask, columns from the second); the image, with its leading unit
  axis dropped, is pooled along its first axis by the row ids, its first two axes are exchanged, it is pooled along
  what is now the first axis by the column ids, the axes are exchanged back and the unit axis is restored.
-/
import proofs.«158316_j5549097747077_1_alg».proof.Proof.Gen.ReferenceIdeal
import proofs.«158316_j5549097747077_1_alg».proof.Proof.RefStage
import proofs.«158316_j5549097747077_1_alg».proof.Proof.SegIds

noncomputable section

namespace Cert.ReferenceIdeal.Out

open Cert.ReferenceIdeal Cert.ReferenceIdeal.Gen Idealize.ShloMosaic

variable {F : FTy → Type} [FloatOps F]

/-- The pooling stage's side conditions hold at these shapes. -/
theorem stageFacts : Cert.RefStage.Facts where
  bcast_S_S512x512x256 := bcast_S_S512x512x256
  bcast_S512_S512x1_0 := bcast_S512_S512x1_0
  bcast_S_S512 := bcast_S_S512
  bcast_S512_S512x1x1_0 := bcast_S512_S512x1x1_0
  bcast_S512x1x1_S512x512x256_0_1_2 := bcast_S512x1x1_S512x512x256_0_1_2
  scatter3_wf := scatter_S512x512x256_S512x1_S512x512x256_12_0_0_1_wf
  scatter1_wf := scatter_S512_S512x1_S512_n_0_0_1_wf
  gather_wf := gather_S512x512x256_S512x1_S512x512x256_12_0_n_n_0_1_1512256_wf

/-- The segment ids of a mask row. -/
def ids (mask : IVec S1x512 32) : IVec S512 32 :=
  Cert.SegIds.segIds bcast_S_S1 slices_S512_S511_1 slices_S512_S511_0 natLt_1_32 concatenates_S1_S511_S512_d0 bcast_S_S_
    reduceWindows_S512_S512_w512s1p511_0 h_S_ (shapeCast S512 mask shapeCasts_S1x512_S512)

/-- The reference's result as a function of the image and the two mask rows. -/
def out (x : FVec F S1x512x512x256 .f32) (hm vm : IVec S1x512 32) : FVec F S1x512x512x256 .f32 :=
  broadcastInDim S1x512x512x256 ![1, 2, 3] bcast_S512x512x256_S1x512x512x256_1_2_3
    (transpose S512x512x256 [1, 0, 2]
      (Cert.RefStage.stage stageFacts (ids vm)
        (transpose S512x512x256 [1, 0, 2]
          (Cert.RefStage.stage stageFacts (ids hm) (shapeCast S512x512x256 x shapeCasts_S1x512x512x256_S512x512x256))
          transposes_S512x512x256_S512x512x256_1_0_2))
      transposes_S512x512x256_S512x512x256_1_0_2)

end Cert.ReferenceIdeal.Out

end
-- ==== Proof.RefRun.lean ====
/-
  The reference program's run, read back.

  The reference is a straight line of host operations: no kernel is launched and nothing branches. Its two calls of the
  running-sum function are that function's three operations (a zero, its broadcast to a scalar, the windowed sum) carried
  out over the call's own buffers, so the whole program is one list of seventy-six operations, each writing one buffer
  that nothing later overwrites. Every execution therefore terminates with each buffer holding the composition of the
  operations that lead to it, applied to the contents the arguments had at launch, and with the arguments unchanged. At
  the result buffer that composition is, term for term, the function `Out.out` of the three arguments: the two masks'
  segment ids, then two pooling stages with the first two axes exchanged between and after them.
-/
import proofs.«158316_j5549097747077_1_alg».proof.Proof.RefOut
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The program's seventy-six operations, in order: the first mask's change flags and their running sum (the sum's three
    operations over the first call's buffers), the same for the second mask, the first pooling stage, the exchange of
    axes, the second pooling stage, the exchange back and the restored unit axis. -/
abbrev ops : List (HloOp τ sig (Elt F)) :=
  [ reshape main_arg0 main_v0 rfl shapeCasts_S1x512x512x256_S512x512x256,
    reshape main_arg1 main_v1 rfl shapeCasts_S1x512_S512,
    nullary main_c (constantI S_ 32 0#32),
    unary main_c main_v2 (broadcastInDim S1 ![] bcast_S_S1),
    unary main_v1 main_v3 (extractStridedSlice S511 ![1] · slices_S512_S511_1),
    unary main_v1 main_v4 (extractStridedSlice S511 ![0] · slices_S512_S511_0),
    binary main_v3 main_v4 main_v5 (cmpi .ne),
    unary main_v5 main_v6 (extui 32 · natLt_1_32),
    binary main_v2 main_v6 main_v7 (fun a b => concatenate S512 0 [⟨S1, a⟩, ⟨S511, b⟩] concatenates_S1_S511_S512_d0),
    TRef.nullary main_call0.call0.c (constantI S_ 32 0#32),
    TRef.unary main_call0.call0.c main_call0.call0.v0 (broadcastInDim S_ ![] bcast_S_S_),
    TRef.binary (.of main_v7) main_call0.call0.v0 main_call0.call0.v1
      (fun x v => Host.reduceWindow IntOp.addi ![512] ![1] ![511] ![0] x v reduceWindows_S512_S512_w512s1p511_0 h_S_),
    reshape main_arg2 main_v9 rfl shapeCasts_S1x512_S512,
    nullary main_c_0 (constantI S_ 32 0#32),
    unary main_c_0 main_v10 (broadcastInDim S1 ![] bcast_S_S1),
    unary main_v9 main_v11 (extractStridedSlice S511 ![1] · slices_S512_S511_1),
    unary main_v9 main_v12 (extractStridedSlice S511 ![0] · slices_S512_S511_0),
    binary main_v11 main_v12 main_v13 (cmpi .ne),
    unary main_v13 main_v14 (extui 32 · natLt_1_32),
    binary main_v10 main_v14 main_v15 (fun a b => concatenate S512 0 [⟨S1, a⟩, ⟨S511, b⟩] concatenates_S1_S511_S512_d0),
    TRef.nullary main_call1.call0.c (constantI S_ 32 0#32),
    TRef.unary main_call1.call0.c main_call1.call0.v0 (broadcastInDim S_ ![] bcast_S_S_),
    TRef.binary (.of main_v15) main_call1.call0.v0 main_call1.call0.v1
      (fun x v => Host.reduceWindow IntOp.addi ![512] ![1] ![511] ![0] x v reduceWindows_S512_S512_w512s1p511_0 h_S_),
    nullary main_cst (constant S_ .f32 0x00000000#32),
    unary main_cst main_v17 (broadcastInDim S512x512x256 ![] bcast_S_S512x512x256),
    unary main_v8 main_v18 (broadcastInDim S512x1 ![0] bcast_S512_S512x1_0),
    ternary main_v17 main_v18 main_v0 main_v19 (fun x i u => Host.scatterAdd scatter_S512x512x256_S512x1_S512x512x256_12_0_0_1 x i u),
    nullary main_cst_1 (constant S_ .f32 0x3F800000#32),
    unary main_cst_1 main_v20 (broadcastInDim S512 ![] bcast_S_S512),
    nullary main_cst_2 (constant S_ .f32 0x00000000#32),
    unary main_cst_2 main_v21 (broadcastInDim S512 ![] bcast_S_S512),
    unary main_v8 main_v22 (broadcastInDim S512x1 ![0] bcast_S512_S512x1_0),
    ternary main_v21 main_v22 main_v20 main_v23 (fun x i u => Host.scatterAdd scatter_S512_S512x1_S512_n_0_0_1 x i u),
    nullary main_cst_3 (constant S_ .f32 0x3F800000#32),
    unary main_cst_3 main_v24 (broadcastInDim S512 ![] bcast_S_S512),
    binary main_v23 main_v24 main_v25 maximumf,
    unary main_v25 main_v26 (broadcastInDim S512x1x1 ![0] bcast_S512_S512x1x1_0),
    unary main_v26 main_v27 (broadcastInDim S512x512x256 ![0, 1, 2] bcast_S512x1x1_S512x512x256_0_1_2),
    binary main_v19 main_v27 main_v28 Host.divf,
    nullary main_c_4 (constantI S_ 32 0#32),
    unary main_c_4 main_v29 (broadcastInDim S512 ![] bcast_S_S512),
    binary main_v8 main_v29 main_v30 (cmpi .slt),
    nullary main_c_5 (constantI S_ 32 512#32),
    unary main_c_5 main_v31 (broadcastInDim S512 ![] bcast_S_S512),
    binary main_v8 main_v31 main_v32 addi,
    ternary main_v30 main_v32 main_v8 main_v33 select,
    unary main_v33 main_v34 (broadcastInDim S512x1 ![0] bcast_S512_S512x1_0),
    binary main_v28 main_v34 main_v35 (fun x i => Host.gather gather_S512x512x256_S512x1_S512x512x256_12_0_n_n_0_1_1512256 x i),
    unary main_v35 main_v36 (transpose S512x512x256 [1, 0, 2] · transposes_S512x512x256_S512x512x256_1_0_2),
    nullary main_cst_6 (constant S_ .f32 0x00000000#32),
    unary main_cst_6 main_v37 (broadcastInDim S512x512x256 ![] bcast_S_S512x512x256),
    unary main_v16 main_v38 (broadcastInDim S512x1 ![0] bcast_S512_S512x1_0),
    ternary main_v37 main_v38 main_v36 main_v39 (fun x i u => Host.scatterAdd scatter_S512x512x256_S512x1_S512x512x256_12_0_0_1 x i u),
    nullary main_cst_7 (constant S_ .f32 0x3F800000#32),
    unary main_cst_7 main_v40 (broadcastInDim S512 ![] bcast_S_S512),
    nullary main_cst_8 (constant S_ .f32 0x00000000#32),
    unary main_cst_8 main_v41 (broadcastInDim S512 ![] bcast_S_S512),
    unary main_v16 main_v42 (broadcastInDim S512x1 ![0] bcast_S512_S512x1_0),
    ternary main_v41 main_v42 main_v40 main_v43 (fun x i u => Host.scatterAdd scatter_S512_S512x1_S512_n_0_0_1 x i u),
    nullary main_cst_9 (constant S_ .f32 0x3F800000#32),
    unary main_cst_9 main_v44 (broadcastInDim S512 ![] bcast_S_S512),
    binary main_v43 main_v44 main_v45 maximumf,
    unary main_v45 main_v46 (broadcastInDim S512x1x1 ![0] bcast_S512_S512x1x1_0),
    unary main_v46 main_v47 (broadcastInDim S512x512x256 ![0, 1, 2] bcast_S512x1x1_S512x512x256_0_1_2),
    binary main_v39 main_v47 main_v48 Host.divf,
    nullary main_c_10 (constantI S_ 32 0#32),
    unary main_c_10 main_v49 (broadcastInDim S512 ![] bcast_S_S512),
    binary main_v16 main_v49 main_v50 (cmpi .slt),
    nullary main_c_11 (constantI S_ 32 512#32),
    unary main_c_11 main_v51 (broadcastInDim S512 ![] bcast_S_S512),
    binary main_v16 main_v51 main_v52 addi,
    ternary main_v50 main_v52 main_v16 main_v53 select,
    unary main_v53 main_v54 (broadcastInDim S512x1 ![0] bcast_S512_S512x1_0),
    binary main_v48 main_v54 main_v55 (fun x i => Host.gather gather_S512x512x256_S512x1_S512x512x256_12_0_n_n_0_1_1512256 x i),
    unary main_v55 main_v56 (transpose S512x512x256 [1, 0, 2] · transposes_S512x512x256_S512x512x256_1_0_2),
    unary main_v56 main_v57 (broadcastInDim S1x512x512x256 ![1, 2, 3] bcast_S512x512x256_S1x512x512x256_1_2_3) ]

set_option maxRecDepth 2048 in
set_option maxHeartbeats 4000000 in
/-- The program is that straight line: with the running-sum function's body put in place of each call, both sides are one
    chain of operation steps once sequencing is re-associated. -/
theorem main_eq (c : Dev nD) : main (F := F) c = seq ops := by
  simp only [main, main_part0, main_part1, fn_cumsum.body, fn_cumsum_0.body, seq, bind_assoc, pure_bind]
  rfl

/-- No buffer of the program is scoped to a region. -/
theorem scopedRefs_eq : (Finset.univ.filter fun b : Ref sig .tc => b.isScoped) = ∅ := by decide
/-- No semaphore of the program is scoped to a region. -/
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨reshape_bufs_sub .., reshape_bufs_sub .., nullary_bufs_sub .., unary_bufs_sub .., unary_bufs_sub .., unary_bufs_sub ..,
    binary_bufs_sub .., unary_bufs_sub .., binary_bufs_sub .., nullary_bufs_sub .., unary_bufs_sub .., binary_bufs_sub ..,
    reshape_bufs_sub .., nullary_bufs_sub .., unary_bufs_sub .., unary_bufs_sub .., unary_bufs_sub .., binary_bufs_sub ..,
    unary_bufs_sub .., binary_bufs_sub .., nullary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..⟩

attribute [local irreducible] Host.reduceWindow Host.gather Host.scatterAdd Host.divf concatenate in
set_option maxRecDepth 8192 in
set_option maxHeartbeats 4000000 in
/-- The operations composed at the result buffer are `Out.out` of the three arguments' contents: each operation's value
    at the buffer it writes is its function of its operands' values, every other buffer keeps what it held, and the
    composed term and `Out.out` are the same operations in the same order over the same side conditions. -/
theorem out_eq (V : Valuation τ sig (Elt F)) :
    after ops V (main_v57 : DevRef τ sig)
      = Cert.ReferenceIdeal.Out.out (V (main_arg0 : DevRef τ sig)) (V (main_arg1 : DevRef τ sig)) (V (main_arg2 : DevRef τ sig)) := by
  after_results_simp
  rfl

set_option maxRecDepth 8192 in
set_option maxHeartbeats 4000000 in
/-- No operation writes the image. -/
theorem arg0_eq (V : Valuation τ sig (Elt F)) : after ops V (main_arg0 : DevRef τ sig) = V (main_arg0 : DevRef τ sig) := by
  after_results_simp

set_option maxRecDepth 8192 in
set_option maxHeartbeats 4000000 in
/-- No operation writes the first mask. -/
theorem arg1_eq (V : Valuation τ sig (Elt F)) : after ops V (main_arg1 : DevRef τ sig) = V (main_arg1 : DevRef τ sig) := by
  after_results_simp

set_option maxRecDepth 8192 in
set_option maxHeartbeats 4000000 in
/-- No operation writes the second mask. -/
theorem arg2_eq (V : Valuation τ sig (Elt F)) : after ops V (main_arg2 : DevRef τ sig) = V (main_arg2 : DevRef τ sig) := by
  after_results_simp

/-- On every device, for any float values, from any memory with zero counters: every weakly fair execution of the
    reference terminates with the result buffer at `Out.out` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = Cert.ReferenceIdeal.Out.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v57).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.Run

end
-- ==== Proof.RefScatter.lean ====
/-
  The accumulating scatters of a pooling stage, read at an index.

  An update slab `a'` lands on slab `s` of the result exactly when its id, read as a signed word, is `s` (an id outside
  `[0, 512)` lands nowhere and contributes nothing), so slab `s` of the sums is the sum of the slabs whose id is `s`, and
  entry `s` of the counts is the number of such slabs, then the larger of that and one.
-/
import proofs.«158316_j5549097747077_1_alg».proof.Proof.RefStage

noncomputable section

namespace Cert.RefStage

open Idealize.ShloMosaic Idealize.ShloMosaic.ValueIdx

/-- The id column read at row `a` is the id of position `a`. -/
private theorem col_apply (hf : Facts) (ids : IVec S512 32) (a : Fin 512) (z : Fin 1) :
    broadcastInDim S512x1 ![0] hf.bcast_S512_S512x1_0 ids (ix2 a z) = ids (ix1 a) := by
  unfold broadcastInDim
  congr 1
  funext d
  match d with
  | ⟨0, _⟩ => rfl

/-- The slab scatter reads the start index of update `(a', b', c')` at row `a'` of the id column. -/
private theorem scat3_siIdx (hf : Facts) (a' b' : Fin 512) (c' : Fin 256)
    (k : Fin (scat3 hf).scatterDimsToOperandDims.length) :
    (scat3 hf).siIdx (ix3 a' b' c') k = ix2 a' (0 : Fin 1) := by
  funext b
  match b with
  | ⟨0, _⟩ => rfl
  | ⟨1, _⟩ =>
    apply Fin.ext
    have hc : k.val < 1 := k.isLt
    show k.val = 0
    omega

/-- On axis 0 the window of update `(a', b', c')` starts at its id, read as a signed word. -/
private theorem scat3_start0 (hf : Facts) {w : Nat} (a' b' : Fin 512) (c' : Fin 256) (idx : IVec S512x1 w) :
    (scat3 hf).start (ix3 a' b' c') idx 0 = (idx (ix2 a' (0 : Fin 1))).toInt := by
  have hm : (0 : Fin 3) ∈ (scat3 hf).scatterDimsToOperandDims := show (0 : Fin 3) ∈ ([0] : List (Fin 3)) by decide
  unfold ScatterDims.start
  rw [dif_pos hm, scat3_siIdx]

/-- Axis 1 is not a scattered axis: the window starts at zero. -/
private theorem scat3_start1 (hf : Facts) {w : Nat} (j : S512x512x256.Idx) (idx : IVec S512x1 w) :
    (scat3 hf).start j idx 1 = 0 := by
  have hm : (1 : Fin 3) ∉ (scat3 hf).scatterDimsToOperandDims := show (1 : Fin 3) ∉ ([0] : List (Fin 3)) by decide
  unfold ScatterDims.start
  rw [dif_neg hm]

/-- Axis 2 is not a scattered axis: the window starts at zero. -/
private theorem scat3_start2 (hf : Facts) {w : Nat} (j : S512x512x256.Idx) (idx : IVec S512x1 w) :
    (scat3 hf).start j idx 2 = 0 := by
  have hm : (2 : Fin 3) ∉ (scat3 hf).scatterDimsToOperandDims := show (2 : Fin 3) ∉ ([0] : List (Fin 3)) by decide
  unfold ScatterDims.start
  rw [dif_neg hm]

/-- Axis 0 is inserted: the window coordinate is zero. -/
private theorem scat3_window0 (hf : Facts) (j : S512x512x256.Idx) : (scat3 hf).window j 0 = 0 := by
  have hm : (0 : Fin 3) ∉ (scat3 hf).sKept :=
    show (0 : Fin S512x512x256.rank) ∉ S512x512x256.kept [0] by decide
  unfold ScatterDims.window
  rw [dif_neg hm]

/-- On axis 1 the window coordinate of update `(a', b', c')` is `b'`. -/
private theorem scat3_window1 (hf : Facts) (a' b' : Fin 512) (c' : Fin 256) :
    (scat3 hf).window (ix3 a' b' c') 1 = b'.val := by
  have hm : (1 : Fin 3) ∈ (scat3 hf).sKept :=
    show (1 : Fin S512x512x256.rank) ∈ S512x512x256.kept [0] by decide
  unfold ScatterDims.window
  rw [dif_pos hm]
  rfl

/-- On axis 2 the window coordinate of update `(a', b', c')` is `c'`. -/
private theorem scat3_window2 (hf : Facts) (a' b' : Fin 512) (c' : Fin 256) :
    (scat3 hf).window (ix3 a' b' c') 2 = c'.val := by
  have hm : (2 : Fin 3) ∈ (scat3 hf).sKept :=
    show (2 : Fin S512x512x256.rank) ∈ S512x512x256.kept [0] by decide
  unfold ScatterDims.window
  rw [dif_pos hm]
  rfl

/-- Update `(a', b', c')` lands on `(s, b, c)` exactly when its signed id is `s`, `b' = b` and `c' = c`. -/
private theorem scat3_resultIdx_iff (hf : Facts) {w : Nat} (a' b' : Fin 512) (c' : Fin 256) (idx : IVec S512x1 w)
    (s b : Fin 512) (c : Fin 256) :
    (scat3 hf).resultIdx? (ix3 a' b' c') idx = some (ix3 s b c)
      ↔ (idx (ix2 a' (0 : Fin 1))).toInt = (s.val : Int) ∧ b' = b ∧ c' = c := by
  have e0 := scat3_start0 hf a' b' c' idx
  have e1 := scat3_start1 hf (ix3 a' b' c') idx
  have e2 := scat3_start2 hf (ix3 a' b' c') idx
  have w0 := scat3_window0 hf (ix3 a' b' c')
  have w1 := scat3_window1 hf a' b' c'
  have w2 := scat3_window2 hf a' b' c'
  have hs := s.isLt
  have hb' := b'.isLt
  have hc' := c'.isLt
  unfold ScatterDims.resultIdx?
  by_cases h : ∀ a, 0 ≤ (scat3 hf).start (ix3 a' b' c') idx a + (scat3 hf).window (ix3 a' b' c') a
      ∧ (scat3 hf).start (ix3 a' b' c') idx a + (scat3 hf).window (ix3 a' b' c') a < S512x512x256.size a
  · rw [dif_pos h]
    have g0 : _ ∧ _ < ((512 : Nat) : Int) := h 0
    constructor
    · intro heq
      have hfun := Option.some.inj heq
      have h0 : ((scat3 hf).start (ix3 a' b' c') idx 0 + (scat3 hf).window (ix3 a' b' c') 0).toNat = s.val :=
        congrArg Fin.val (congrFun hfun 0)
      have h1 : ((scat3 hf).start (ix3 a' b' c') idx 1 + (scat3 hf).window (ix3 a' b' c') 1).toNat = b.val :=
        congrArg Fin.val (congrFun hfun 1)
      have h2 : ((scat3 hf).start (ix3 a' b' c') idx 2 + (scat3 hf).window (ix3 a' b' c') 2).toNat = c.val :=
        congrArg Fin.val (congrFun hfun 2)
      exact ⟨by omega, Fin.ext (by omega), Fin.ext (by omega)⟩
    · rintro ⟨ht, hb, hc⟩
      subst hb; subst hc
      refine congrArg some (funext fun a => ?_)
      match a with
      | ⟨0, _⟩ =>
        apply Fin.ext
        show ((scat3 hf).start (ix3 a' b' c') idx 0 + (scat3 hf).window (ix3 a' b' c') 0).toNat = s.val
        omega
      | ⟨1, _⟩ =>
        apply Fin.ext
        show ((scat3 hf).start (ix3 a' b' c') idx 1 + (scat3 hf).window (ix3 a' b' c') 1).toNat = b'.val
        omega
      | ⟨2, _⟩ =>
        apply Fin.ext
        show ((scat3 hf).start (ix3 a' b' c') idx 2 + (scat3 hf).window (ix3 a' b' c') 2).toNat = c'.val
        omega
  · rw [dif_neg h]
    constructor
    · intro heq
      cases heq
    · rintro ⟨ht, hb, hc⟩
      exfalso
      apply h
      intro a
      match a with
      | ⟨0, _⟩ =>
        show 0 ≤ (scat3 hf).start (ix3 a' b' c') idx 0 + (scat3 hf).window (ix3 a' b' c') 0
          ∧ (scat3 hf).start (ix3 a' b' c') idx 0 + (scat3 hf).window (ix3 a' b' c') 0 < ((512 : Nat) : Int)
        omega
      | ⟨1, _⟩ =>
        show 0 ≤ (scat3 hf).start (ix3 a' b' c') idx 1 + (scat3 hf).window (ix3 a' b' c') 1
          ∧ (scat3 hf).start (ix3 a' b' c') idx 1 + (scat3 hf).window (ix3 a' b' c') 1 < ((512 : Nat) : Int)
        omega
      | ⟨2, _⟩ =>
        show 0 ≤ (scat3 hf).start (ix3 a' b' c') idx 2 + (scat3 hf).window (ix3 a' b' c') 2
          ∧ (scat3 hf).start (ix3 a' b' c') idx 2 + (scat3 hf).window (ix3 a' b' c') 2 < ((256 : Nat) : Int)
        omega

/-- The broadcast zero constant is zero at every index. -/
private theorem zero3_apply (hf : Facts) (i : S512x512x256.Idx) :
    broadcastInDim S512x512x256 ![] hf.bcast_S_S512x512x256 (constant (F := Ideal) S_ .f32 0x00000000#32) i = 0 := by
  unfold broadcastInDim
  rw [constant_apply]
  exact Ideal.ofBits_zero_f32

/-- A sum over all three-axis indices of a term supported on the line `(·, b, c)` is the sum along that line. -/
private theorem sum_slab (f : S512x512x256.Idx → EReal) (Q : Fin 512 → Prop) [DecidablePred Q] (b : Fin 512) (c : Fin 256)
    (P : S512x512x256.Idx → Prop) {dP : DecidablePred P}
    (hP : ∀ (a' b' : Fin 512) (c' : Fin 256), P (ix3 a' b' c') ↔ Q a' ∧ b' = b ∧ c' = c) :
    (∑ j, if P j then f j else 0) = ∑ a' : Fin 512, if Q a' then f (ix3 a' b c) else 0 := by
  classical
  rw [← Finset.sum_filter, ← Finset.sum_filter]
  have hset : Finset.univ.filter P = (Finset.univ.filter Q).image (fun a' => ix3 a' b c) := by
    ext j
    obtain ⟨a', b', c', rfl⟩ : ∃ (a' b' : Fin 512) (c' : Fin 256), j = ix3 a' b' c' := ⟨j 0, j 1, j 2, eq_ix3 j⟩
    simp only [Finset.mem_filter, Finset.mem_univ, true_and, Finset.mem_image]
    rw [hP]
    constructor
    · rintro ⟨hq, rfl, rfl⟩
      exact ⟨a', hq, rfl⟩
    · rintro ⟨a2, hq, he⟩
      have h0 : a2 = a' := congrFun he 0
      have h1 : b = b' := congrFun he 1
      have h2 : c = c' := congrFun he 2
      subst h0
      exact ⟨hq, h1.symm, h2.symm⟩
  rw [hset, Finset.sum_image]
  intro a1 _ a2 _ he
  exact congrFun he 0

/-- The count scatter reads the start index of update `a'` at row `a'` of the id column. -/
private theorem scat1_siIdx (hf : Facts) (a' : Fin 512) (k : Fin (scat1 hf).scatterDimsToOperandDims.length) :
    (scat1 hf).siIdx (ix1 a') k = ix2 a' (0 : Fin 1) := by
  funext b
  match b with
  | ⟨0, _⟩ => rfl
  | ⟨1, _⟩ =>
    apply Fin.ext
    have hc : k.val < 1 := k.isLt
    show k.val = 0
    omega

/-- The window of update `a'` starts at its id, read as a signed word. -/
private theorem scat1_start0 (hf : Facts) {w : Nat} (a' : Fin 512) (idx : IVec S512x1 w) :
    (scat1 hf).start (ix1 a') idx 0 = (idx (ix2 a' (0 : Fin 1))).toInt := by
  have hm : (0 : Fin 1) ∈ (scat1 hf).scatterDimsToOperandDims := show (0 : Fin 1) ∈ ([0] : List (Fin 1)) by decide
  unfold ScatterDims.start
  rw [dif_pos hm, scat1_siIdx]

/-- The only axis is inserted: the window coordinate is zero. -/
private theorem scat1_window0 (hf : Facts) (j : S512.Idx) : (scat1 hf).window j 0 = 0 := by
  have hm : (0 : Fin 1) ∉ (scat1 hf).sKept :=
    show (0 : Fin S512.rank) ∉ S512.kept [0] by decide
  unfold ScatterDims.window
  rw [dif_neg hm]

/-- Update `a'` lands on entry `s` exactly when its signed id is `s`. -/
private theorem scat1_resultIdx_iff (hf : Facts) {w : Nat} (a' : Fin 512) (idx : IVec S512x1 w) (s : Fin 512) :
    (scat1 hf).resultIdx? (ix1 a') idx = some (ix1 s)
      ↔ (idx (ix2 a' (0 : Fin 1))).toInt = (s.val : Int) := by
  have e0 := scat1_start0 hf a' idx
  have w0 := scat1_window0 hf (ix1 a')
  have hs := s.isLt
  unfold ScatterDims.resultIdx?
  by_cases h : ∀ a, 0 ≤ (scat1 hf).start (ix1 a') idx a + (scat1 hf).window (ix1 a') a
      ∧ (scat1 hf).start (ix1 a') idx a + (scat1 hf).window (ix1 a') a < S512.size a
  · rw [dif_pos h]
    have g0 : _ ∧ _ < ((512 : Nat) : Int) := h 0
    constructor
    · intro heq
      have hfun := Option.some.inj heq
      have h0 : ((scat1 hf).start (ix1 a') idx 0 + (scat1 hf).window (ix1 a') 0).toNat = s.val :=
        congrArg Fin.val (congrFun hfun 0)
      omega
    · intro ht
      refine congrArg some (funext fun a => ?_)
      match a with
      | ⟨0, _⟩ =>
        apply Fin.ext
        show ((scat1 hf).start (ix1 a') idx 0 + (scat1 hf).window (ix1 a') 0).toNat = s.val
        omega
  · rw [dif_neg h]
    constructor
    · intro heq
      cases heq
    · intro ht
      exfalso
      apply h
      intro a
      match a with
      | ⟨0, _⟩ =>
        show 0 ≤ (scat1 hf).start (ix1 a') idx 0 + (scat1 hf).window (ix1 a') 0
          ∧ (scat1 hf).start (ix1 a') idx 0 + (scat1 hf).window (ix1 a') 0 < ((512 : Nat) : Int)
        omega

/-- The broadcast zero constant is zero at every index. -/
private theorem zero1_apply (hf : Facts) (i : S512.Idx) :
    broadcastInDim S512 ![] hf.bcast_S_S512 (constant (F := Ideal) S_ .f32 0x00000000#32) i = 0 := by
  unfold broadcastInDim
  rw [constant_apply]
  exact Ideal.ofBits_zero_f32

/-- The broadcast unit constant is one at every index. -/
private theorem one1_apply (hf : Facts) (i : S512.Idx) :
    broadcastInDim S512 ![] hf.bcast_S_S512 (constant (F := Ideal) S_ .f32 0x3F800000#32) i = 1 := by
  unfold broadcastInDim
  rw [constant_apply]
  exact Ideal.ofBits_one_f32

/-- A sum over all one-axis indices is the sum over their coordinates. -/
private theorem sum_row (f : S512.Idx → EReal) (Q : Fin 512 → Prop) [DecidablePred Q]
    (P : S512.Idx → Prop) {dP : DecidablePred P}
    (hP : ∀ a' : Fin 512, P (ix1 a') ↔ Q a') :
    (∑ j, if P j then f j else 0) = ∑ a' : Fin 512, if Q a' then f (ix1 a') else 0 := by
  classical
  rw [← Finset.sum_filter, ← Finset.sum_filter]
  have hset : Finset.univ.filter P = (Finset.univ.filter Q).image (fun a' => ix1 a') := by
    ext j
    obtain ⟨a', rfl⟩ : ∃ a' : Fin 512, j = ix1 a' := ⟨j 0, eq_ix1 j⟩
    simp only [Finset.mem_filter, Finset.mem_univ, true_and, Finset.mem_image]
    rw [hP]
    constructor
    · intro hq
      exact ⟨a', hq, rfl⟩
    · rintro ⟨a2, hq, he⟩
      have h0 : a2 = a' := congrFun he 0
      subst h0
      exact hq
  rw [hset, Finset.sum_image]
  intro a1 _ a2 _ he
  exact congrFun he 0

/-- The per-id sums at `(s, b, c)`: the sum over positions whose id is `s` of the column through `(·, b, c)`. -/
theorem segSum_apply (hf : Facts) (ids : IVec S512 32) (x : FVec Ideal S512x512x256 .f32) (s b : Fin 512) (c : Fin 256) :
    segSum (F := Ideal) hf ids x (ix3 s b c)
      = ∑ a' : Fin 512, if (ids (ix1 a')).toInt = (s.val : Int) then x (ix3 a' b c) else 0 := by
  unfold segSum Host.scatterAdd
  rw [Ideal.hostScatterAdd_def]
  unfold Ideal.hostScatterAdd
  rw [zero3_apply hf, zero_add, Finset.sum_filter]
  exact sum_slab x (fun a' => (ids (ix1 a')).toInt = (s.val : Int)) b c _
    (fun a' b' c' => by rw [scat3_resultIdx_iff, col_apply hf])

/-- The per-id counts at `s`: the number of positions whose id is `s`, never below one. -/
theorem segCnt_apply (hf : Facts) (ids : IVec S512 32) (s : Fin 512) :
    segCnt (F := Ideal) hf ids (ix1 s)
      = max (∑ a' : Fin 512, if (ids (ix1 a')).toInt = (s.val : Int) then (1 : EReal) else 0) 1 := by
  unfold segCnt
  rw [maximumf_apply, one1_apply hf]
  congr 1
  unfold Host.scatterAdd
  rw [Ideal.hostScatterAdd_def]
  unfold Ideal.hostScatterAdd
  rw [zero1_apply hf, zero_add, Finset.sum_filter]
  simp only [one1_apply hf]
  exact sum_row (fun _ => (1 : EReal)) (fun a' => (ids (ix1 a')).toInt = (s.val : Int)) _
    (fun a' => by rw [scat1_resultIdx_iff, col_apply hf])

end Cert.RefStage

end
-- ==== Proof.RefGather.lean ====
/-
  The gather of a pooling stage, read at an index.

  With every id in `[0, 512)` the wrap of negative ids does nothing and the clamp of the start index does nothing, so
  result slab `a` is the operand's slab `ids a`.
-/
import proofs.«158316_j5549097747077_1_alg».proof.Proof.RefStage

noncomputable section

namespace Cert.RefStage

open Idealize.ShloMosaic Idealize.ShloMosaic.ValueIdx

/-- The slab an in-range signed id names. -/
def slabOf (b : BitVec 32) (h : 0 ≤ b.toInt ∧ b.toInt < 512) : Fin 512 := ⟨b.toInt.toNat, by omega⟩

/-- A vector laid out as a column reads, at row `a`, the vector at `a`. -/
private theorem col_apply {α : Type} (hf : Facts) (v : S512.Idx → α) (a : Fin 512) :
    broadcastInDim S512x1 ![0] hf.bcast_S512_S512x1_0 v (ix2 a (0 : Fin 1)) = v (ix1 a) := by
  unfold broadcastInDim
  congr 1
  funext d
  match d with
  | ⟨0, _⟩ =>
    refine Fin.ext ?_
    split
    · rename_i h1
      exact absurd h1 (show ¬ (512 : Nat) = 1 by omega)
    · rfl

/-- The comparison "below zero" of a word whose signed value is not negative is the bit `0`. -/
private theorem slt_zero_of_nonneg (w : BitVec 32) (h : 0 ≤ w.toInt) : IntOp.cmpi .slt w 0#32 = 0#1 := by
  have hs : w.slt 0#32 = false := by
    rw [Bool.eq_false_iff]
    intro hh
    rw [BitVec.slt_iff_toInt_lt] at hh
    have h0 : (0#32 : BitVec 32).toInt = 0 := by decide
    omega
  show BitVec.ofBool (w.slt 0#32) = 0#1
  rw [hs]
  rfl

/-- The wrap of a word whose signed value is not negative is the word. -/
private theorem wrap_of_nonneg (w : BitVec 32) (h : 0 ≤ w.toInt) :
    Scalar.select (IntOp.cmpi .slt w 0#32) (IntOp.addi w 512#32) w = w := by
  rw [slt_zero_of_nonneg w h, select_zero]

/-- The start-index column at row `a` is the id of `a` when no id is negative. -/
theorem idxCol_apply (hf : Facts) (ids : IVec S512 32)
    (hids : ∀ a : Fin 512, 0 ≤ (ids (ix1 a)).toInt ∧ (ids (ix1 a)).toInt < 512) (a : Fin 512) :
    idxCol hf ids (ix2 a (0 : Fin 1)) = ids (ix1 a) := by
  unfold idxCol
  rw [col_apply hf]
  exact wrap_of_nonneg (ids (ix1 a)) (hids a).1

/-- The operand's axis 0 is not among the axes the result's offset axes read. -/
private theorem zero_not_kept (hf : Facts) : (0 : Fin 3) ∉ (gath hf).sKept := fun h =>
  ((GatherDims.mem_sKept _ _).mp h).1 (List.mem_singleton.mpr rfl)

/-- The start-indices index at which result index `(a, b, c)` reads its one start component: row `a` of the column. -/
private theorem siIdx_eq (hf : Facts) (a b : Fin 512) (c : Fin 256)
    (k : Fin (gath hf).startIndexMap.length) :
    (gath hf).siIdx (ix3 a b c) k = ix2 a (0 : Fin 1) := by
  funext e
  refine Fin.ext ?_
  match e with
  | ⟨0, _⟩ => rfl
  | ⟨1, _⟩ =>
    have hk : k.val < 1 := k.isLt
    show k.val = 0
    omega

/-- THE GATHER AT `(a, b, c)`: the operand at slab `ids a`, same `(b, c)`. -/
theorem gather_apply {α : Type} (hf : Facts) (ids : IVec S512 32)
    (hids : ∀ a : Fin 512, 0 ≤ (ids (ix1 a)).toInt ∧ (ids (ix1 a)).toInt < 512)
    (y : S512x512x256.Idx → α) (a b : Fin 512) (c : Fin 256) :
    Host.gather (gath hf) y (idxCol hf ids) (ix3 a b c) = y (ix3 (slabOf (ids (ix1 a)) (hids a)) b c) := by
  unfold Host.gather
  congr 1
  funext d
  refine Fin.ext ?_
  match d with
  | ⟨0, _⟩ =>
    show (gath hf).start (ix3 a b c) (idxCol hf ids) 0 + (gath hf).batchCoord (ix3 a b c) 0
      + (gath hf).offCoord (ix3 a b c) 0 = (ids (ix1 a)).toInt.toNat
    rw [GatherDims.batchCoord_eq_zero _ _ _ List.not_mem_nil, GatherDims.offCoord_eq_zero _ _ _ (zero_not_kept hf)]
    unfold GatherDims.start
    rw [dif_pos (show (0 : Fin 3) ∈ (gath hf).startIndexMap from List.mem_singleton.mpr rfl), siIdx_eq,
      idxCol_apply hf ids hids a]
    have h := hids a
    show min (ids (ix1 a)).toInt.toNat (512 - 1) + 0 + 0 = _
    omega
  | ⟨1, _⟩ =>
    show (gath hf).start (ix3 a b c) (idxCol hf ids) 1 + (gath hf).batchCoord (ix3 a b c) 1
      + (gath hf).offCoord (ix3 a b c) 1 = b.val
    rw [GatherDims.batchCoord_eq_zero _ _ _ List.not_mem_nil]
    unfold GatherDims.start
    have hn : (1 : Fin 3) ∉ (gath hf).startIndexMap := (show (1 : Fin 3) ∉ ([0] : List (Fin 3)) from by decide)
    rw [dif_neg hn]
    show 0 + 0 + (gath hf).offCoord (ix3 a b c) 1 = b.val
    simp only [Nat.zero_add]
    rfl
  | ⟨2, _⟩ =>
    show (gath hf).start (ix3 a b c) (idxCol hf ids) 2 + (gath hf).batchCoord (ix3 a b c) 2
      + (gath hf).offCoord (ix3 a b c) 2 = c.val
    rw [GatherDims.batchCoord_eq_zero _ _ _ List.not_mem_nil]
    unfold GatherDims.start
    have hn : (2 : Fin 3) ∉ (gath hf).startIndexMap := (show (2 : Fin 3) ∉ ([0] : List (Fin 3)) from by decide)
    rw [dif_neg hn]
    show 0 + 0 + (gath hf).offCoord (ix3 a b c) 2 = c.val
    simp only [Nat.zero_add]
    rfl

end Cert.RefStage

end
-- ==== Proof.RefStageApply.lean ====
/-
  One pooling stage of the reference at an index: the class mean.

  Result slab `a` reads slab `ids a` of the quotient of the per-id sums by the per-id counts; an update lands on that slab
  exactly when its id equals `ids a` (signed reading is injective on words), so the entry is the class sum of the column
  divided by the class size.
-/
import proofs.«158316_j5549097747077_1_alg».proof.Proof.RefScatter
import proofs.«158316_j5549097747077_1_alg».proof.Proof.RefGather

noncomputable section

namespace Cert.RefStage

open Idealize.ShloMosaic Idealize.ShloMosaic.ValueIdx

/-- A vector laid out along axis 0 and repeated over the other two axes reads, at `(s, b, c)`, the vector at `s`. -/
private theorem slabBcast_apply {α : Type} (hf : Facts) (v : S512.Idx → α) (s b : Fin 512) (c : Fin 256) :
    broadcastInDim S512x512x256 ![0, 1, 2] hf.bcast_S512x1x1_S512x512x256_0_1_2
      (broadcastInDim S512x1x1 ![0] hf.bcast_S512_S512x1x1_0 v) (ix3 s b c) = v (ix1 s) := by
  unfold broadcastInDim
  congr 1
  funext d
  match d with
  | ⟨0, _⟩ => rfl

/-- An id's signed value is the slab of an in-range id exactly when the two ids are the same word. -/
private theorem toInt_eq_slab_iff (w v : BitVec 32) (h : 0 ≤ v.toInt ∧ v.toInt < 512) :
    w.toInt = ((slabOf v h).val : Int) ↔ w = v := by
  have hv : ((slabOf v h).val : Int) = v.toInt := by
    show ((v.toInt.toNat : Nat) : Int) = v.toInt
    omega
  rw [hv]
  exact BitVec.toInt_inj

/-- THE STAGE AT AN INDEX: with every id in `[0, 512)`, the class mean of the column through `(·, b, c)`. -/
theorem stage_apply (hf : Facts) (ids : IVec S512 32)
    (hids : ∀ a : Fin 512, 0 ≤ (ids (ix1 a)).toInt ∧ (ids (ix1 a)).toInt < 512)
    (x : FVec Ideal S512x512x256 .f32) (a b : Fin 512) (c : Fin 256) :
    stage (F := Ideal) hf ids x (ix3 a b c)
      = Spec.meanForm (fun a' : Fin 512 => ids (ix1 a')) (fun a' : Fin 512 => x (ix3 a' b c)) a := by
  unfold stage
  rw [gather_apply hf ids hids, hostDivf_apply, slabBcast_apply hf, segSum_apply, segCnt_apply]
  unfold Spec.meanForm
  congr 1
  · exact Finset.sum_congr rfl
      (fun a' _ => if_congr (toInt_eq_slab_iff (ids (ix1 a')) (ids (ix1 a)) (hids a)) rfl rfl)
  · congr 1
    exact Finset.sum_congr rfl
      (fun a' _ => if_congr (toInt_eq_slab_iff (ids (ix1 a')) (ids (ix1 a)) (hids a)) rfl rfl)

end Cert.RefStage

end
-- ==== Proof.RIndex.lean ====
/-
  The reference's function at an index: the image pooled by two class means.

  Restoring the unit axis and exchanging the first two axes back reads the second stage at `(w, h, c)`: the class mean,
  by the column ids, of the column `w' ↦` (first stage, axes exchanged) at `(w', h, c)`, which is the first stage at
  `(h, w', c)`: the class mean, by the row ids, of `h' ↦` the image at `(0, h', w', c)`. Both id vectors lie in
  `[0, 512)`, which is what the stages ask.
-/
import proofs.«158316_j5549097747077_1_alg».proof.Proof.RefOut
import proofs.«158316_j5549097747077_1_alg».proof.Proof.RefStageApply
import proofs.«158316_j5549097747077_1_alg».proof.Proof.Spec
import Idealize.ShloMosaic.Lib.ValueIdx
import Idealize.ShloMosaic.Lib.ValueLayout
import Idealize.ShloMosaic.Lib.Pipeline.Value

noncomputable section

namespace Cert.ReferenceIdeal.Out

open Cert.ReferenceIdeal Cert.ReferenceIdeal.Gen Idealize.ShloMosaic Idealize.ShloMosaic.ValueIdx

/-- Every segment id of a mask row lies in `[0, 512)`. -/
theorem ids_range (mask : IVec S1x512 32) (a : Fin 512) :
    0 ≤ (ids mask (ix1 a)).toInt ∧ (ids mask (ix1 a)).toInt < 512 := by
  unfold ids
  exact Cert.SegIds.segIds_range _ _ _ _ _ _ _ _ (shapeCast S512 mask shapeCasts_S1x512_S512) a

/-- The image with its unit axis restored reads, at `(u, i, j, k)`, the operand at `(i, j, k)`. -/
private theorem broadcast_unit_apply {α : Type} (y : S512x512x256.Idx → α)
    (hb : S512x512x256.BroadcastsInDim S1x512x512x256 (![1, 2, 3] : Fin 3 → Fin S1x512x512x256.rank))
    (u : Fin 1) (i j : Fin 512) (k : Fin 256) :
    broadcastInDim S1x512x512x256 ![1, 2, 3] hb y (ix4 u i j k) = y (ix3 i j k) :=
  broadcastInDim_apply _ hb y _ _ fun a => match a with | ⟨0, _⟩ => rfl | ⟨1, _⟩ => rfl | ⟨2, _⟩ => rfl

/-- The first two axes exchanged: at `(j, i, k)` the operand at `(i, j, k)`. -/
private theorem transpose_102_apply {α : Type} (y : S512x512x256.Idx → α)
    (ht : S512x512x256.Transposes [1, 0, 2] S512x512x256) (j i : Fin 512) (k : Fin 256) :
    transpose S512x512x256 [1, 0, 2] y ht (ix3 j i k) = y (ix3 i j k) :=
  transpose_apply _ y ht _ _ fun c => match c with | ⟨0, _⟩ => rfl | ⟨1, _⟩ => rfl | ⟨2, _⟩ => rfl

/-- The leading unit axis dropped: at `(i, j, k)` the operand at `(0, i, j, k)`. -/
private theorem dropUnit_apply {α : Type} (y : S1x512x512x256.Idx → α)
    (hc : S1x512x512x256.ShapeCasts S512x512x256) (i j : Fin 512) (k : Fin 256) :
    shapeCast S512x512x256 y hc (ix3 i j k) = y (ix4 (0 : Fin 1) i j k) :=
  shapeCast_1abc_abc_apply y hc i j k

/-- THE REFERENCE'S FUNCTION AT `(0, h, w, c)`. -/
theorem out_apply (x : FVec Ideal S1x512x512x256 .f32) (hm vm : IVec S1x512 32) (h w : Fin 512) (c : Fin 256) :
    out (F := Ideal) x hm vm (ix4 (0 : Fin 1) h w c)
      = Cert.Spec.pooledMean (fun k : Fin 512 => ids hm (ix1 k)) (fun k : Fin 512 => ids vm (ix1 k))
          (fun h' w' c' => x (ix4 (0 : Fin 1) h' w' c')) h w c := by
  unfold out
  rw [broadcast_unit_apply, transpose_102_apply,
    Cert.RefStage.stage_apply stageFacts (ids vm) (ids_range vm)]
  unfold Cert.Spec.pooledMean
  refine congrArg (fun f => Cert.Spec.meanForm (fun k : Fin 512 => ids vm (ix1 k)) f w) (funext fun w' => ?_)
  rw [transpose_102_apply, Cert.RefStage.stage_apply stageFacts (ids hm) (ids_range hm)]
  refine congrArg (fun f => Cert.Spec.meanForm (fun k : Fin 512 => ids hm (ix1 k)) f h) (funext fun h' => ?_)
  exact dropUnit_apply x _ h' w' c

end Cert.ReferenceIdeal.Out

end
-- ==== Proof.lean ====
/-
  Pooling an image over the cells of a grid of stripes: the kernel's program against the reference.

  Two mask rows cut the 512 rows and the 512 columns of an image into stripes (a new stripe starts wherever the mask
  changes); every pixel is replaced by the mean of its cell, channel by channel. The reference computes, for the rows and
  then for the columns, the sum of each stripe, divides by the stripe's size and reads the quotient back at every
  position. The kernel's program builds, for the rows and for the columns, the matrix whose entry `(a, a')` is one over
  the size of `a`'s stripe when `a'` lies in it and zero otherwise, and multiplies the image by the two matrices in two
  kernel regions. On real data the two agree: dividing a stripe's sum by its size is multiplying every term by the
  reciprocal of the size, a real factor that moves across a finite sum of reals; the pooled rows are real again, so the
  same holds for the columns. The image is real by the precondition.

  The frames of the two kernel programs are the generated ones; the reference's frame is its run with the result dropped.
  Nothing was rewritten by the idealization, so there is nothing to preserve.
-/
import proofs.«158316_j5549097747077_1_alg».proof.Defs
import proofs.«158316_j5549097747077_1_alg».proof.Proof.Gen.Kernel
import proofs.«158316_j5549097747077_1_alg».proof.Proof.Gen.Kernel.Skeleton
import proofs.«158316_j5549097747077_1_alg».proof.Proof.Gen.Kernel.Launch
import proofs.«158316_j5549097747077_1_alg».proof.Proof.Gen.Kernel.Points
import proofs.«158316_j5549097747077_1_alg».proof.Proof.Gen.Kernel.Frame
import proofs.«158316_j5549097747077_1_alg».proof.Proof.Gen.KernelIdeal
import proofs.«158316_j5549097747077_1_alg».proof.Proof.Gen.KernelIdeal.Skeleton
import proofs.«158316_j5549097747077_1_alg».proof.Proof.Gen.KernelIdeal.Launch
import proofs.«158316_j5549097747077_1_alg».proof.Proof.Gen.KernelIdeal.Points
import proofs.«158316_j5549097747077_1_alg».proof.Proof.Gen.KernelIdeal.Frame
import proofs.«158316_j5549097747077_1_alg».proof.Proof.Gen.ReferenceIdeal
import proofs.«158316_j5549097747077_1_alg».proof.Proof.Gen.Pre_finite_inputs
import proofs.«158316_j5549097747077_1_alg».proof.Proof.Algebra
import proofs.«158316_j5549097747077_1_alg».proof.Proof.Finite
import proofs.«158316_j5549097747077_1_alg».proof.Proof.KernelOut
import proofs.«158316_j5549097747077_1_alg».proof.Proof.KValue
import proofs.«158316_j5549097747077_1_alg».proof.Proof.KIndex
import proofs.«158316_j5549097747077_1_alg».proof.Proof.RefRun
import proofs.«158316_j5549097747077_1_alg».proof.Proof.RIndex
import Idealize.ShloMosaic.Adequacy
import Idealize.ShloMosaic.Init

noncomputable section

namespace Cert.Proof

open Idealize.ShloMosaic Idealize.ShloMosaic.ValueIdx Idealize.SL.Sem

/-- On a real image the reference's function and the kernel program's function of the arguments are one function: at
    every index both are the image pooled over its cell, once as class means and once as matrix products. -/
theorem result_eq (x : FVec Ideal Cert.KernelIdeal.S1x512x512x256 .f32) (hm vm : IVec Cert.KernelIdeal.S1x512 32)
    (hx : ∀ i, ∃ r : ℝ, x i = (r : EReal)) :
    Cert.ReferenceIdeal.Out.out (F := Ideal) x hm vm = Cert.KernelIdeal.Out.out x hm vm := by
  funext i
  obtain ⟨z, h, w, c, rfl⟩ : ∃ (z : Fin 1) (h w : Fin 512) (c : Fin 256), i = ix4 z h w c :=
    ⟨i 0, i 1, i 2, i 3, eq_ix4 i⟩
  obtain rfl : z = 0 := Subsingleton.elim _ _
  rw [Cert.ReferenceIdeal.Out.out_apply, Cert.KernelIdeal.Out.out_apply]
  exact (Cert.Spec.pooledMat_eq_pooledMean _ _ _ (fun h' w' c' => hx _) h w c).symm

/-- The reference runs and keeps its arguments: its run, with what it says of the result dropped. -/
theorem frame_referenceIdeal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Run.run (F := Ideal) m ρ)

/-- Both idealized programs, from memories agreeing on the arguments, end with the image pooled over its cells. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Out.out
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Out.W9_out m ρ c), (h c).2⟩)
      (Cert.KernelIdeal.Out.run_out m ρ)
  · refine (θ_run Cert.ReferenceIdeal.defs _ _).mono (fun r h c => ⟨(h c).1.trans ?_, (h c).2⟩)
      (Cert.ReferenceIdeal.Run.run (F := Ideal) m' ρ')
    rw [(hagree c).1, (hagree c).2.1, (hagree c).2.2]
    exact result_eq _ _ _ (fun i => Cert.Finite.real_of_pre _ _ _ (hpre c) i)

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_referenceIdeal, trivial,
    algebraic⟩

end Cert.Proof

end
